-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x128 : Shape := ⟨2, ![2000000, 128]⟩
abbrev S2000000 : Shape := ⟨1, ![2000000]⟩
abbrev S1000x128 : Shape := ⟨2, ![1000, 128]⟩
abbrev S_ : Shape := ⟨0, ![]⟩

class Facts : Prop where
  bcast_S_S2000000x128 : S_.BroadcastsInDim S2000000x128 (![] : Fin 0 → Fin S2000000x128.rank)
  reducesTo_S2000000x128_S_d0_1 : S2000000x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_

variable [Facts]

def fn {F : FTy → Type} [FloatOps F] (main_arg0 : FVec F S2000000x128 .f32) (main_arg1 : IVec S2000000 32) (main_arg2 : FVec F S1000x128 .f32) : IVec S_ 1 :=
  let main_v0 : FVec F S2000000x128 .f32 := Host.absf main_arg0
  let main_cst : FVec F S_ .f32 := constant S_ .f32 0x7F800000#32
  let main_v1 : FVec F S2000000x128 .f32 := broadcastInDim S2000000x128 ![] bcast_S_S2000000x128 main_cst
  let main_v2 : IVec S2000000x128 1 := cmpf .olt main_v0 main_v1
  let main_c : IVec S_ 1 := constantI S_ 1 1#1
  let main_v3 : IVec S_ 1 := (fun x v => Host.reduce IntOp.andi x v reducesTo_S2000000x128_S_d0_1 h_S_) main_v2 main_c
  let main_v4 : FVec F S1000x128 .f32 := Host.absf main_arg2
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  main_v8
-- ==== Kernel.lean ====
abbrev S2000000x128 : Shape := ⟨2, ![2000000, 128]⟩
abbrev S2000000 : Shape := ⟨1, ![2000000]⟩
abbrev S1000x128 : Shape := ⟨2, ![1000, 128]⟩
abbrev S2000000x1 : Shape := ⟨2, ![2000000, 1]⟩
abbrev S2048x128 : Shape := ⟨2, ![2048, 128]⟩
abbrev S1000x1 : Shape := ⟨2, ![1000, 1]⟩
abbrev S1024x128 : Shape := ⟨2, ![1024, 128]⟩
abbrev S1000x256 : Shape := ⟨2, ![1000, 256]⟩
abbrev S1000x1024 : Shape := ⟨2, ![1000, 1024]⟩
abbrev S1024x256 : Shape := ⟨2, ![1024, 256]⟩
abbrev S1024 : Shape := ⟨1, ![1024]⟩
abbrev S1024x1 : Shape := ⟨2, ![1024, 1]⟩
abbrev S_ : Shape := ⟨0, ![]⟩
abbrev S1000 : Shape := ⟨1, ![1000]⟩

abbrev nBuf : Space → Nat
  | .hbm => 39
  | .vmem => 10
  | .smem => 0
  | _ => 0

abbrev bufTy : (tb : Table) → Fin (tcTables nBuf tb) → BufTy
  | .hbm, ⟨0, _⟩ => ⟨S2000000x128, .f32⟩
  | .hbm, ⟨1, _⟩ => ⟨S2000000, .i32⟩
  | .hbm, ⟨2, _⟩ => ⟨S1000x128, .f32⟩
  | .hbm, ⟨3, _⟩ => ⟨S2000000x1, .i32⟩
  | .hbm, ⟨4, _⟩ => ⟨S2048x128, .f32⟩
  | .hbm, ⟨5, _⟩ => ⟨S2048x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S1024x128, .f32⟩
  | .hbm, ⟨12, _⟩ => ⟨S1000x128, .f32⟩
  | .hbm, ⟨13, _⟩ => ⟨S1000x1, .f32⟩
  | .hbm, ⟨14, _⟩ => ⟨S_, .f32⟩
  | .hbm, ⟨15, _⟩ => ⟨S1000x1, .f32⟩
  | .hbm, ⟨16, _⟩ => ⟨S1000x1, .f32⟩
  | .hbm, ⟨17, _⟩ => ⟨S1000x128, .f32⟩
  | .hbm, ⟨18, _⟩ => ⟨S1000x128, .f32⟩
  | .hbm, ⟨19, _⟩ => ⟨S_, .f32⟩
  | .hbm, ⟨20, _⟩ => ⟨S1000x1, .f32⟩
  | .hbm, ⟨21, _⟩ => ⟨S1000x1, .i1⟩
  | .hbm, ⟨22, _⟩ => ⟨S_, .f32⟩
  | .hbm, ⟨23, _⟩ => ⟨S1000, .f32⟩
  | .hbm, ⟨24, _⟩ => ⟨S1000x1, .f32⟩
  | .hbm, ⟨25, _⟩ => ⟨S_, .f32⟩
  | .hbm, ⟨26, _⟩ => ⟨S1000x1, .f32⟩
  | .hbm, ⟨27, _⟩ => ⟨S1000x1, .i1⟩
  | .hbm, ⟨28, _⟩ => ⟨S_, .f32⟩
  | .hbm, ⟨29, _⟩ => ⟨S1000x128, .f32⟩
  | .hbm, ⟨30, _⟩ => ⟨S1000x128, .f32⟩
  | .hbm, ⟨31, _⟩ => ⟨S_, .f32⟩
  | .hbm, ⟨32, _⟩ => ⟨S1000x128, .f32⟩
  | .hbm, ⟨33, _⟩ => ⟨S1000x128, .f32⟩
  | .hbm, ⟨34, _⟩ => ⟨S1000x128, .f32⟩
  | .hbm, ⟨35, _⟩ => ⟨S1000x128, .i1⟩
  | .hbm, ⟨36, _⟩ => ⟨S1000x128, .f32⟩
  | .hbm, ⟨37, _⟩ => ⟨S1000x128, .i1⟩
  | .hbm, ⟨38, _⟩ => ⟨S1000x128, .f32⟩
  | .local _ .vmem, ⟨0, _⟩ => ⟨S1000x128, .f32⟩
  | .local _ .vmem, ⟨1, _⟩ => ⟨S1000x128, .f32⟩
  | .local _ .vmem, ⟨2, _⟩ => ⟨S1000x1, .i32⟩
  | .local _ .vmem, ⟨3, _⟩ => ⟨S1000x1, .i32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | _, _ => ⟨S2000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_v25 : Ref sig .tc := ⟨.hbm, 36, rfl⟩
abbrev main_call1_v0 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 1000], ![false, false]⟩

def k0_cond2 (i : grid0.Coords) : BitVec 1 :=
  let arg1 : BitVec 32 := BitVec.ofNat 32 (i 1).val
  let c999_i32 : BitVec 32 := 999#32
  let v37 : BitVec 1 := Scalar.cmpi .eq arg1 c999_i32
  let v38 : BitVec 32 := Scalar.extui v37
  let c0_i32_13 : BitVec 32 := 0#32
  let v39 : BitVec 1 := Scalar.cmpi .ne v38 c0_i32_13
  v39

def cc0_transform_0 (i : grid0.Coords) : Fin 2 → Nat :=
  let arg0 : BitVec 32 := BitVec.ofNat 32 (i 0).val
  let arg1 : BitVec 32 := BitVec.ofNat 32 (i 1).val
  let c1000_i32 : BitVec 32 := 1000#32
  let v0 : BitVec 32 := Scalar.muli arg0 c1000_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1000_i32 : BitVec 32 := 1000#32
  let v0 : BitVec 32 := Scalar.muli arg0 c1000_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2000000_S2000000x1 : S2000000.ShapeCasts S2000000x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  concatenates_S1000x128_S1000x128_S1000x256_d1 : Shape.Concatenates [S1000x128, S1000x128] S1000x256 1
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x1024_d1_w32 : S1000x1024.Iotas .tc 32 [1]
  broadcasts_S1000x1_S1000x1024 : S1000x1.Broadcasts S1000x1024
  natLt_1_32 : 1 < 32
  slices_S1024x256_o0_0_S1024x128 : S1024x256.Slices ![0, 0] S1024x128
  slices_S1024x256_o0_128_S1024x128 : S1024x256.Slices ![0, 128] S1024x128
  reduces_S1000x1024_S1024 : S1000x1024.Reduces [0] S1024
  shapeCasts_S1024_S1024x1 : S1024.ShapeCasts S1024x1
  shapeCasts_S1024x1_S1024x1 : S1024x1.ShapeCasts S1024x1
  broadcasts_S1024x1_S1024x128 : S1024x1.Broadcasts S1024x128
  slices_S2048x128_S1024x128_0_0 : S2048x128.Slices ![0, 0] S1024x128
  slices_S2048x128_S1024x128_1024_0 : S2048x128.Slices ![1024, 0] S1024x128
  slices_S1024x128_S1000x128_0_0 : S1024x128.Slices ![0, 0] S1000x128
  slices_S1024x128_S1000x1_0_0 : S1024x128.Slices ![0, 0] S1000x1
  bcast_S_S1000x1 : S_.BroadcastsInDim S1000x1 (![] : Fin 0 → Fin S1000x1.rank)
  bcast_S1000x1_S1000x128_0_1 : S1000x1.BroadcastsInDim S1000x128 (![0, 1] : Fin 2 → Fin S1000x128.rank)
  reducesTo_S1000x128_S1000_d1 : S1000x128.ReducesTo [1] S1000
  h_S_ : 0 < S_.numel
  bcast_S1000_S1000x1_0 : S1000.BroadcastsInDim S1000x1 (![0] : Fin 1 → Fin S1000x1.rank)
  bcast_S_S1000x128 : S_.BroadcastsInDim S1000x128 (![] : Fin 0 → Fin S1000x128.rank)
  dot_S1000x1024_S1000x256_S1024x256_0_0_1_1_n_n_wf : DotDims.WF S1000x1024 S1000x256 S1024x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S2000000x128.size a
  hwx0_0 : ∀ i : grid0.Coords, EltTy.bits .f32 = 32 ∨ (Rect.block (s := S2000000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S2000000x1.size a
  hwx0_1 : ∀ i : grid0.Coords, EltTy.bits .i32 = 32 ∨ (Rect.block (s := S2000000x1) S1000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S2048x128.size a
  hwx0_2 : ∀ i : grid0.Coords, EltTy.bits .f32 = 32 ∨ (Rect.block (s := S2048x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S2048x128.size a
  hwx0_3 : ∀ i : grid0.Coords, EltTy.bits .f32 = 32 ∨ (Rect.block (s := S2048x128) S1024x128.size (cc0_transform_3 i) (hinb0_3 i)).WholeWords (EltTy.packing .f32)

variable [Facts₀]

def dot_S1000x1024_S1000x256_S1024x256_0_0_1_1_n_n : DotDims S1000x1024 S1000x256 S1024x256 where
  lhsContracting := [0]
  rhsContracting := [0]
  lhsNonContracting := [1]
  rhsNonContracting := [1]
  lhsBatch := []
  rhsBatch := []
  wf := dot_S1000x1024_S1000x256_S1024x256_0_0_1_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1024x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2000000x128 : Shape := ⟨2, ![2000000, 128]⟩
abbrev S2000000 : Shape := ⟨1, ![2000000]⟩
abbrev S1000x128 : Shape := ⟨2, ![1000, 128]⟩
abbrev S_ : Shape := ⟨0, ![]⟩
abbrev S2000000x1 : Shape := ⟨2, ![2000000, 1]⟩
abbrev S1000 : Shape := ⟨1, ![1000]⟩
abbrev S1000x1 : Shape := ⟨2, ![1000, 1]⟩

abbrev nBuf : Space → Nat
  | .hbm => 40
  | .vmem => 0
  | .smem => 0
  | _ => 0

abbrev bufTy : (tb : Table) → Fin (tcTables nBuf tb) → BufTy
  | .hbm, ⟨0, _⟩ => ⟨S2000000x128, .f32⟩
  | .hbm, ⟨1, _⟩ => ⟨S2000000, .i32⟩
  | .hbm, ⟨2, _⟩ => ⟨S1000x128, .f32⟩
  | .hbm, ⟨3, _⟩ => ⟨S_, .f32⟩
  | .hbm, ⟨4, _⟩ => ⟨S1000x128, .f32⟩
  | .hbm, ⟨5, _⟩ => ⟨S2000000x1, .i32⟩
  | .hbm, ⟨6, _⟩ => ⟨S1000x128, .f32⟩
  | .hbm, ⟨7, _⟩ => ⟨S_, .f32⟩
  | .hbm, ⟨8, _⟩ => ⟨S2000000, .f32⟩
  | .hbm, ⟨9, _⟩ => ⟨S_, .f32⟩
  | .hbm, ⟨10, _⟩ => ⟨S1000, .f32⟩
  | .hbm, ⟨11, _⟩ => ⟨S2000000x1, .i32⟩
  | .hbm, ⟨12, _⟩ => ⟨S1000, .f32⟩
  | .hbm, ⟨13, _⟩ => ⟨S_, .f32⟩
  | .hbm, ⟨14, _⟩ => ⟨S1000, .f32⟩
  | .hbm, ⟨15, _⟩ => ⟨S1000, .f32⟩
  | .hbm, ⟨16, _⟩ => ⟨S1000x1, .f32⟩
  | .hbm, ⟨17, _⟩ => ⟨S1000x128, .f32⟩
  | .hbm, ⟨18, _⟩ => ⟨S1000x128, .f32⟩
  | .hbm, ⟨19, _⟩ => ⟨S_, .f32⟩
  | .hbm, ⟨20, _⟩ => ⟨S1000, .f32⟩
  | .hbm, ⟨21, _⟩ => ⟨S1000, .i1⟩
  | .hbm, ⟨22, _⟩ => ⟨S1000x1, .i1⟩
  | .hbm, ⟨23, _⟩ => ⟨S_, .f32⟩
  | .hbm, ⟨24, _⟩ => ⟨S1000, .f32⟩
  | .hbm, ⟨25, _⟩ => ⟨S_, .f32⟩
  | .hbm, ⟨26, _⟩ => ⟨S1000, .f32⟩
  | .hbm, ⟨27, _⟩ => ⟨S1000, .i1⟩
  | .hbm, ⟨28, _⟩ => ⟨S1000x1, .i1⟩
  | .hbm, ⟨29, _⟩ => ⟨S_, .f32⟩
  | .hbm, ⟨30, _⟩ => ⟨S1000x128, .f32⟩
  | .hbm, ⟨31, _⟩ => ⟨S1000x128, .f32⟩
  | .hbm, ⟨32, _⟩ => ⟨S_, .f32⟩
  | .hbm, ⟨33, _⟩ => ⟨S1000x128, .f32⟩
  | .hbm, ⟨34, _⟩ => ⟨S1000x128, .f32⟩
  | .hbm, ⟨35, _⟩ => ⟨S1000x128, .f32⟩
  | .hbm, ⟨36, _⟩ => ⟨S1000x128, .i1⟩
  | .hbm, ⟨37, _⟩ => ⟨S1000x128, .f32⟩
  | .hbm, ⟨38, _⟩ => ⟨S1000x128, .i1⟩
  | .hbm, ⟨39, _⟩ => ⟨S1000x128, .f32⟩
  | _, _ => ⟨S2000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_v24 : Ref sig .tc := ⟨.hbm, 37, rfl⟩
abbrev main_call1_v0 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S1000x128 : S_.BroadcastsInDim S1000x128 (![] : Fin 0 → Fin S1000x128.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  reducesTo_S1000x128_S1000_d1 : S1000x128.ReducesTo [1] S1000
  h_S_ : 0 < S_.numel
  scatter_S1000x128_S2000000x1_S2000000x128_1_0_0_1_wf : ScatterDims.WF S1000x128 S2000000x1 S2000000x128 [1] [0] [0] 1
  scatter_S1000_S2000000x1_S2000000_n_0_0_1_wf : ScatterDims.WF S1000 S2000000x1 S2000000 [] [0] [0] 1

variable [Facts₀]

def scatter_S1000x128_S2000000x1_S2000000x128_1_0_0_1 : ScatterDims S1000x128 S2000000x1 S2000000x128 where
  updateWindowDims := [1]
  insertedWindowDims := [0]
  scatterDimsToOperandDims := [0]
  indexVectorDim := 1
  wf := scatter_S1000x128_S2000000x1_S2000000x128_1_0_0_1_wf
def scatter_S1000_S2000000x1_S2000000_n_0_0_1 : ScatterDims S1000 S2000000x1 S2000000 where
  updateWindowDims := []
  insertedWindowDims := [0]
  scatterDimsToOperandDims := [0]
  indexVectorDim := 1
  wf := scatter_S1000_S2000000x1_S2000000_n_0_0_1_wf

class Facts : Prop extends Facts₀ where

variable [Facts]
-- ==== Proof.ClassMean.lean ====
/-
  The class-mean prototype update, stated once as a function of the three argument arrays.

  Rows of a table `x` of 2,000,000 rows and 128 columns carry a 32-bit class word each. For a class `p` below
  1000 the rows whose word, read as a signed integer, is `p` form the class; `classSum` adds their entries
  column by column and `classCount` counts them. The new prototype entry (`blend`) is the old entry when the
  class is empty; otherwise the class mean itself when the old prototype row sums to zero, and else the
  mixture `0.9 · old + 0.1 · mean` with the two float constants kept as their bit patterns. The mean divides by
  `max count 1`.

  Beside the definitions: a sum over all 2,000,000 rows is the sum over 2 halves, 1000 tiles a half and 1000
  rows a tile (`sum_rows_eq_tiles`), which is how a tiled accumulation visits the rows.
-/
import Idealize.ShloMosaic.PureOps.Ideal
import Idealize.ShloMosaic.PureOps.Ideal.Laws
import Idealize.ShloMosaic.Lib.ValueIdx

noncomputable section

open scoped BigOperators

namespace Cert.ClassMean

open Idealize.ShloMosaic Idealize.ShloMosaic.ValueIdx

abbrev SFeat : Shape := ⟨2, ![2000000, 128]⟩
abbrev SLab : Shape := ⟨1, ![2000000]⟩
abbrev SProto : Shape := ⟨2, ![1000, 128]⟩

/-- The rows of class `p`: those whose class word, read signed, is `p`. -/
def rowsOf (lbl : SLab.Idx → BitVec 32) (p : Fin 1000) : Finset (Fin 2000000) :=
  Finset.univ.filter fun i => (lbl (ix1 i)).toInt = (p.val : ℤ)

theorem mem_rowsOf (lbl : SLab.Idx → BitVec 32) (p : Fin 1000) (i : Fin 2000000) :
    i ∈ rowsOf lbl p ↔ (lbl (ix1 i)).toInt = (p.val : ℤ) := by
  unfold rowsOf; rw [Finset.mem_filter]; exact ⟨fun h => h.2, fun h => ⟨Finset.mem_univ _, h⟩⟩

/-- Column `c` of the class's rows, added up. -/
def classSum (x : SFeat.Idx → EReal) (lbl : SLab.Idx → BitVec 32) (p : Fin 1000) (c : Fin 128) : EReal :=
  ∑ i ∈ rowsOf lbl p, x (ix2 i c)

/-- How many rows the class has, as an extended real. -/
def classCount (lbl : SLab.Idx → BitVec 32) (p : Fin 1000) : EReal :=
  (((rowsOf lbl p).card : ℝ) : EReal)

/-- A prototype row's total: the float zero plus its 128 entries. -/
def rowTotal (pr : SProto.Idx → EReal) (p : Fin 1000) : EReal :=
  Ideal.ofBits .f32 0x00000000#32 + ∑ k : Fin 128, pr (ix2 p k)

/-- The new entry from the class's sum `s`, its count `n`, the old row's total `q` and the old entry `v`. -/
def blend (s n q v : EReal) : EReal :=
  Scalar.select (FloatOps.cmpf (F := Ideal) (φ := .f32) .ogt n (Ideal.ofBits .f32 0x00000000#32))
    (Scalar.select (FloatOps.cmpf (F := Ideal) (φ := .f32) .oeq q (Ideal.ofBits .f32 0x00000000#32))
      (Ideal.div s (max n (Ideal.ofBits .f32 0x3F800000#32)))
      (Ideal.ofBits .f32 0x3F666666#32 * v
        + Ideal.ofBits .f32 0x3DCCCCCD#32 * Ideal.div s (max n (Ideal.ofBits .f32 0x3F800000#32))))
    v

/-- The updated prototype table. -/
def updated (x : SFeat.Idx → EReal) (lbl : SLab.Idx → BitVec 32) (pr : SProto.Idx → EReal) : SProto.Idx → EReal :=
  fun j => blend (classSum x lbl ⟨(j 0).val, idx2_lt0 j⟩ ⟨(j 1).val, idx2_lt1 j⟩)
    (classCount lbl ⟨(j 0).val, idx2_lt0 j⟩) (rowTotal pr ⟨(j 0).val, idx2_lt0 j⟩) (pr j)

theorem updated_apply (x : SFeat.Idx → EReal) (lbl : SLab.Idx → BitVec 32) (pr : SProto.Idx → EReal)
    (p : Fin 1000) (c : Fin 128) :
    updated x lbl pr (ix2 p c) = blend (classSum x lbl p c) (classCount lbl p) (rowTotal pr p) (pr (ix2 p c)) := rfl

/-! ## The rows, tile by tile -/

/-- Row `k` of tile `j` of half `h`: row `(1000·h + j)·1000 + k`. -/
def rowAt (h : Fin 2) (j k : Fin 1000) : Fin 2000000 :=
  ⟨(1000 * h.val + j.val) * 1000 + k.val, by have := h.isLt; have := j.isLt; have := k.isLt; omega⟩

theorem rowAt_val (h : Fin 2) (j k : Fin 1000) : (rowAt h j k).val = (1000 * h.val + j.val) * 1000 + k.val := rfl

/-- Every row is row `k` of tile `j` of half `h` for exactly one `(h, j, k)`. -/
def rowEquiv : Fin 2 × Fin 1000 × Fin 1000 ≃ Fin 2000000 where
  toFun t := rowAt t.1 t.2.1 t.2.2
  invFun i := (⟨i.val / 1000000, by have := i.isLt; omega⟩, ⟨i.val / 1000 % 1000, Nat.mod_lt _ (by norm_num)⟩,
    ⟨i.val % 1000, Nat.mod_lt _ (by norm_num)⟩)
  left_inv t := by
    obtain ⟨h, j, k⟩ := t
    have := h.isLt; have := j.isLt; have := k.isLt
    refine Prod.ext (Fin.ext ?_) (Prod.ext (Fin.ext ?_) (Fin.ext ?_))
    · show ((1000 * h.val + j.val) * 1000 + k.val) / 1000000 = h.val; omega
    · show ((1000 * h.val + j.val) * 1000 + k.val) / 1000 % 1000 = j.val; omega
    · show ((1000 * h.val + j.val) * 1000 + k.val) % 1000 = k.val; omega
  right_inv i := by
    apply Fin.ext
    show (1000 * (i.val / 1000000) + i.val / 1000 % 1000) * 1000 + i.val % 1000 = i.val
    have := i.isLt; omega

/-- A sum over all rows, visited half by half, tile by tile, row by row. -/
theorem sum_rows_eq_tiles {M : Type*} [AddCommMonoid M] (f : Fin 2000000 → M) :
    ∑ i : Fin 2000000, f i = ∑ h : Fin 2, ∑ j : Fin 1000, ∑ k : Fin 1000, f (rowAt h j k) := by
  rw [← Equiv.sum_comp rowEquiv f, Fintype.sum_prod_type]
  refine Finset.sum_congr rfl fun h _ => ?_
  rw [Fintype.sum_prod_type]
  rfl

/-- A sum over a class's rows is the sum over all rows of the entries the class keeps. -/
theorem classSum_eq_ite (x : SFeat.Idx → EReal) (lbl : SLab.Idx → BitVec 32) (p : Fin 1000) (c : Fin 128) :
    classSum x lbl p c = ∑ i : Fin 2000000, if (lbl (ix1 i)).toInt = (p.val : ℤ) then x (ix2 i c) else 0 := by
  unfold classSum rowsOf
  rw [Finset.sum_filter]

/-- The count of a class's rows is the sum over all rows of one for a row the class keeps. -/
theorem classCount_eq_ite (lbl : SLab.Idx → BitVec 32) (p : Fin 1000) :
    classCount lbl p = ∑ i : Fin 2000000, if (lbl (ix1 i)).toInt = (p.val : ℤ) then (1 : EReal) else 0 := by
  unfold classCount rowsOf
  rw [← Finset.sum_filter, Finset.sum_const, nsmul_one, EReal.coe_coe_eq_natCast]

end Cert.ClassMean

end
-- ==== Proof.LibScatter.lean ====
/-
  A row scatter-add read at an index, over the extended reals.  The operand is [N, C], the scatter indices a column
  [R, 1], the updates [R, C]: update row r is added onto operand row idx[r] (the index word read signed; a row landing
  outside the operand is dropped), so each operand element gains the sum of the updates of the rows that land on it.
-/
import Idealize.ShloMosaic.PureOps.Ideal
import Idealize.ShloMosaic.Lib.ValueIdx

noncomputable section

open scoped BigOperators

namespace Cert.LibScatter

open Idealize.ShloMosaic Idealize.ShloMosaic.ValueIdx

/-- The dimension numbers of a row scatter: update window axis 1, inserted window axis 0, the one index component
    addressing axis 0, the index vector along axis 1. -/
abbrev rowScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Facts
variable {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C)

/-- Operand axis 0 is inserted: no window coordinate there. -/
private theorem window0 : (rowScatter N R C wf).window (ix2 r k) 0 = 0 := rfl
/-- Operand axis 1 carries the update's column. -/
private theorem window1 : (rowScatter N R C wf).window (ix2 r k) 1 = k.val := rfl
/-- Operand axis 1 is not addressed by the index: its start is zero. -/
private theorem start1 : (rowScatter N R C wf).start (ix2 r k) idx 1 = 0 := rfl
/-- Operand axis 0 starts at row r's index word, read signed. -/
private theorem start0 : (rowScatter N R C wf).start (ix2 r k) idx 0 = (idx (ix2 r (⟨0, Nat.one_pos⟩ : Fin 1))).toInt := by
  unfold ScatterDims.start
  rw [dif_pos (show (0 : Fin 2) ∈ (rowScatter N R C wf).scatterDimsToOperandDims from List.mem_singleton.mpr rfl)]
  congr 2
  funext b
  refine Fin.ext ?_
  match b with
  | ⟨0, _⟩ => rfl
  | ⟨1, _⟩ => rfl
end Facts

/-- Update element (r, k) lands on operand element (p, k') exactly when row r's index word is p and the columns agree. -/
theorem rowScatter_resultIdx {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) (p : Fin N) (k' : Fin C) :
    (rowScatter N R C wf).resultIdx? (ix2 r k) idx = some (ix2 p k')
      ↔ (idx (ix2 r (⟨0, Nat.one_pos⟩ : Fin 1))).toInt = (p.val : ℤ) ∧ k = k' := by
  have hs0 := start0 wf idx r k
  have hs1 := start1 wf idx r k
  have hw0 := window0 wf r k
  have hw1 := window1 wf r k
  unfold ScatterDims.resultIdx?
  split
  · -- the landing point is inside the operand: compare it with (p, k') coordinate by coordinate
    rename_i h
    rw [Option.some.injEq]
    constructor
    · intro hf
      have h0 := congrArg Fin.val (congrFun hf 0)
      have h1 := congrArg Fin.val (congrFun hf 1)
      have hb0 := h 0
      have hb1 := h 1
      simp only [hs0, hs1, hw0, hw1] at h0 h1 hb0 hb1
      change _ = p.val at h0
      change _ = k'.val at h1
      refine ⟨by omega, Fin.ext (by omega)⟩
    · rintro ⟨hp, rfl⟩
      funext a
      refine Fin.ext ?_
      match a with
      | ⟨0, _⟩ =>
        show ((rowScatter N R C wf).start (ix2 r k) idx 0 + (rowScatter N R C wf).window (ix2 r k) 0).toNat = p.val
        rw [hs0, hw0, hp]; simp
      | ⟨1, _⟩ =>
        show ((rowScatter N R C wf).start (ix2 r k) idx 1 + (rowScatter N R C wf).window (ix2 r k) 1).toNat = k.val
        rw [hs1, hw1]; simp
  · -- the landing point is outside the operand: then the word cannot be a row p < N
    rename_i h
    constructor
    · intro hf; exact absurd hf (by simp)
    · rintro ⟨hp, rfl⟩
      exfalso
      apply h
      intro a
      match a with
      | ⟨0, _⟩ =>
        show 0 ≤ (rowScatter N R C wf).start (ix2 r k) idx 0 + (rowScatter N R C wf).window (ix2 r k) 0 ∧
          (rowScatter N R C wf).start (ix2 r k) idx 0 + (rowScatter N R C wf).window (ix2 r k) 0 < (N : ℤ)
        rw [hs0, hw0, hp]
        have := p.isLt
        constructor <;> omega
      | ⟨1, _⟩ =>
        show 0 ≤ (rowScatter N R C wf).start (ix2 r k) idx 1 + (rowScatter N R C wf).window (ix2 r k) 1 ∧
          (rowScatter N R C wf).start (ix2 r k) idx 1 + (rowScatter N R C wf).window (ix2 r k) 1 < (C : ℤ)
        rw [hs1, hw1]
        have := k.isLt
        constructor <;> omega

/-- THE ROW SCATTER-ADD READ AT (p, k): the operand there plus the sum, over the rows whose index word is p, of the
    update at column k. -/
theorem scatterAdd_row_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (p : Fin N) (k : Fin C) :
    Ideal.hostScatterAdd (rowScatter N R C wf) x idx upd (ix2 p k)
      = x (ix2 p k) + ∑ r ∈ Finset.univ.filter (fun r : Fin R => (idx (ix2 r (⟨0, Nat.one_pos⟩ : Fin 1))).toInt = (p.val : ℤ)),
          upd (ix2 r k) := by
  unfold Ideal.hostScatterAdd
  congr 1
  symm
  -- the update elements landing on (p, k) are exactly the (r, k) with row r's word equal to p
  refine Finset.sum_bij (fun r _ => ix2 r k) ?_ ?_ ?_ ?_
  · intro r hr
    rw [Finset.mem_filter] at hr ⊢
    exact ⟨Finset.mem_univ _, (rowScatter_resultIdx wf idx r k p k).mpr ⟨hr.2, rfl⟩⟩
  · intro r₁ _ r₂ _ h
    exact congrFun h 0
  · intro j hj
    obtain ⟨a, b, rfl⟩ : ∃ (a : Fin R) (b : Fin C), j = ix2 a b := ⟨j 0, j 1, eq_ix2 j⟩
    rw [Finset.mem_filter] at hj
    have hj2 := (rowScatter_resultIdx wf idx a b p k).mp hj.2
    refine ⟨a, ?_, ?_⟩
    · rw [Finset.mem_filter]; exact ⟨Finset.mem_univ _, hj2.1⟩
    · rw [hj2.2]
  · intro r _; rfl

end Cert.LibScatter

end
-- ==== Proof.LibSegNorm.lean ====
/-
  SEGMENT SUMS UNDER A SYMMETRIC NORMALISATION — a general lemma file (no program is named here).

  The setting. A table `L` of `N` rows and `C` columns, a list of `E` edges given by two columns of 32-bit row
  numbers (sources `is`, destinations `id`, each an `[E, 1]` array), and one factor `dinv n` per row. The
  AGGREGATION of per-edge rows `u : [E, C]` is the scatter-add into a zero `[N, C]` table: row `n` of the
  result is the sum of the rows `u e` over the edges `e` whose destination is `n`.

  The law (`agg_law`). Scaling each edge's row by BOTH endpoint factors and then aggregating,
      ∑_{e → n} L[src e] · (dinv[src e] · dinv[dst e]),
  is the same as aggregating the rows of the PRE-SCALED table `L[m] · dinv[m]` and scaling row `n` of the result
  once by `dinv[n]`,
      (∑_{e → n} L[src e] · dinv[src e]) · dinv[n],
  over the extended reals, for every `L`, as soon as each factor `dinv n` is a NONNEGATIVE REAL. Only that is
  needed: a nonnegative real factor distributes over every sum of extended reals, whatever its terms (even
  `⊤ + ⊥`), and multiplication of extended reals is associative and commutative everywhere.

  What the file states, in order:
    * the dimension numbers of the two gathers (a row of an `[N, C]` table, an entry of an `[N]` vector, each at
      an `[E, 1]` column of starts) and of the two scatters (a row into `[N, C]`, an entry into `[N]`), each an
      `abbrev` taking its well-formedness proof as an argument;
    * each gather read at an index: the operand at the start, read signed and clamped into `[0, N − 1]`
      (`rowGather_apply`, `vecGather_apply`);
    * each scatter's landing condition: edge `e`'s update lands on row `n` exactly when its start, read signed
      and NOT clamped, is `n` (`rowScatter_resultIdx`, `vecScatter_resultIdx`);
    * a nonnegative real factor through a finite sum (`sum_mul_coe`);
    * the law (`agg_law`);
    * the degree count: scatter-adding ones into zeros gives a natural number (`degree_real`).
-/
import Idealize.ShloMosaic.Lib.ValueIdx
import Mathlib.Data.EReal.Operations

noncomputable section

open scoped BigOperators

open Idealize.ShloMosaic

namespace SegNorm

open Idealize.ShloMosaic.ValueIdx

/-! ## The dimension numbers -/

/-- A ROW of an `[N, C]` table at each of `E` starts: the table's axis 0 is collapsed and start-indexed, its
    axis 1 is the result's offset axis, the index vector lies on axis 1 of the `[E, 1]` starts. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- An ENTRY of an `[N]` vector at each of `E` starts. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `E` rows of width `C` into an `[N, C]` table, row `e` at the start `e` names. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- `E` scalars into an `[N]` vector, scalar `e` at the start `e` names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The start of an edge -/

/-- The index `[e, 0]` of edge `e`'s start in an `[E, 1]` column. -/
abbrev eIdx {E : Nat} (e : Fin E) : (⟨2, ![E, 1]⟩ : Shape).Idx :=
  fun a => match a with | ⟨0, _⟩ => e | ⟨1, _⟩ => ⟨0, Nat.one_pos⟩

/-- Edge `e`'s start read signed and clamped into `[0, N − 1]`: the row a gather reads. -/
def clampRow {N E w : Nat} (hN : 0 < N) (idx : IVec ⟨2, ![E, 1]⟩ w) (e : Fin E) : Fin N :=
  ⟨min (idx (eIdx e)).toInt.toNat (N - 1), by omega⟩

theorem clampRow_val {N E w : Nat} (hN : 0 < N) (idx : IVec ⟨2, ![E, 1]⟩ w) (e : Fin E) :
    (clampRow hN idx e).val = min (idx (eIdx e)).toInt.toNat (N - 1) := rfl

/-- A start that is a row number is its own clamp. -/
theorem clampRow_of_eq {N E w : Nat} (hN : 0 < N) (idx : IVec ⟨2, ![E, 1]⟩ w) (e : Fin E) (n : Fin N)
    (h : (idx (eIdx e)).toInt = (n.val : Int)) : clampRow hN idx e = n := by
  apply Fin.ext
  rw [clampRow_val, h, Int.toNat_natCast]
  have := n.isLt
  omega

/-! ## The gathers read at an index -/

section Gather
variable {α : Type}

/-- The row gather's operand index on axis 0: the clamped start. -/
theorem rowGather_idx0 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((rowGatherDims N E C wf).operandIdx y idx 0).val
      = min (idx (eIdx ⟨(y 0).val, idx2_lt0 y⟩)).toInt.toNat (N - 1) := by
  show (rowGatherDims N E C wf).start y idx 0 + (rowGatherDims N E C wf).batchCoord y 0
    + (rowGatherDims N E C wf).offCoord y 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx y ⟨List.idxOf (0 : Fin 2) (rowGatherDims N E C wf).startIndexMap,
      List.idxOf_lt_length_iff.2 (List.mem_singleton.mpr rfl)⟩ = eIdx ⟨(y 0).val, idx2_lt0 y⟩ := by
    funext b; refine Fin.ext ?_
    match b with
    | ⟨0, _⟩ => rfl
    | ⟨1, _⟩ => rfl
  rw [hsi]
  rfl

/-- The row gather's operand index on axis 1: the result's column. -/
theorem rowGather_idx1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((rowGatherDims N E C wf).operandIdx y idx 1).val = (y 1).val := by
  show (rowGatherDims N E C wf).start y idx 1 + (rowGatherDims N E C wf).batchCoord y 1
    + (rowGatherDims N E C wf).offCoord y 1 = _
  rw [GatherDims.batchCoord_eq_zero _ _ _ List.not_mem_nil]
  have hns : (1 : Fin 2) ∉ (rowGatherDims N E C wf).startIndexMap := fun h =>
    absurd (congrArg Fin.val (List.mem_singleton.mp h)) Nat.one_ne_zero
  unfold GatherDims.start
  rw [dif_neg hns]
  simp only [Nat.add_zero, Nat.zero_add]
  rfl

/-- THE ROW GATHER READ AT `(e, c)`: the table at row `clamp (start e)`, column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowGatherDims N E C wf) x idx y
      = x (ix2 (clampRow hN idx ⟨(y 0).val, idx2_lt0 y⟩) ⟨(y 1).val, idx2_lt1 y⟩) := by
  unfold Host.gather
  congr 1
  funext a
  refine Fin.ext ?_
  match a with
  | ⟨0, _⟩ => exact rowGather_idx0 wf idx y
  | ⟨1, _⟩ => exact rowGather_idx1 wf idx y

/-- THE VECTOR GATHER READ AT `e`: the vector at entry `clamp (start e)`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecGatherDims N E wf) x idx y = x (ix1 (clampRow hN idx ⟨(y 0).val, (y 0).isLt⟩)) := by
  unfold Host.gather
  congr 1
  funext a
  obtain rfl : a = 0 := Subsingleton.elim _ _
  refine Fin.ext ?_
  show (vecGatherDims N E wf).start y idx 0 + (vecGatherDims N E wf).batchCoord y 0
    + (vecGatherDims N E wf).offCoord y 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx y ⟨List.idxOf (0 : Fin 1) (vecGatherDims N E wf).startIndexMap,
      List.idxOf_lt_length_iff.2 (List.mem_singleton.mpr rfl)⟩ = eIdx ⟨(y 0).val, (y 0).isLt⟩ := by
    funext b; refine Fin.ext ?_
    match b with
    | ⟨0, _⟩ => rfl
    | ⟨1, _⟩ => rfl
  rw [hsi]
  rfl

end Gather

/-! ## Where a scatter's update lands -/

section Scatter

/-- The row scatter's start on axis 0: edge `e`'s start, read signed. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 0 = (idx (eIdx ⟨(j 0).val, idx2_lt0 j⟩)).toInt := by
  unfold ScatterDims.start
  rw [dif_pos (show (0 : Fin 2) ∈ (rowScatterDims N E C wf).scatterDimsToOperandDims from
    List.mem_singleton.mpr rfl)]
  have hsi : (rowScatterDims N E C wf).siIdx j
      ⟨List.idxOf (0 : Fin 2) (rowScatterDims N E C wf).scatterDimsToOperandDims,
        List.idxOf_lt_length_iff.2 (List.mem_singleton.mpr rfl)⟩ = eIdx ⟨(j 0).val, idx2_lt0 j⟩ := by
    funext b; refine Fin.ext ?_
    match b with
    | ⟨0, _⟩ => rfl
    | ⟨1, _⟩ => rfl
  rw [hsi]

/-- The row scatter's start on axis 1: none. -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 1 = 0 := by
  unfold ScatterDims.start
  rw [dif_neg (fun h => absurd (congrArg Fin.val (List.mem_singleton.mp h)) Nat.one_ne_zero)]

/-- The row scatter's window coordinate on axis 0 (the inserted axis): none. -/
theorem rowScatter_window0 {N E C : Nat}
    (wf : ScatterDims.WF ⟨2, ![N, C]⟩ ⟨2, ![E, 1]⟩ ⟨2, ![E, C]⟩ [1] [0] [0] 1)
    (j : (⟨2, ![E, C]⟩ : Shape).Idx) : (rowScatterDims N E C wf).window j 0 = 0 := rfl

/-- The row scatter's window coordinate on axis 1: the update's column. -/
theorem rowScatter_window1 {N E C : Nat}
    (wf : ScatterDims.WF ⟨2, ![N, C]⟩ ⟨2, ![E, 1]⟩ ⟨2, ![E, C]⟩ [1] [0] [0] 1)
    (j : (⟨2, ![E, C]⟩ : Shape).Idx) : (rowScatterDims N E C wf).window j 1 = (j 1).val := rfl

/-- WHERE A ROW UPDATE LANDS: update `(e, c)` lands on `(n, c')` exactly when edge `e`'s start, read signed
    and not clamped, is `n`, and `c = c'`. -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx) :
    (rowScatterDims N E C wf).resultIdx? j idx = some i
      ↔ (idx (eIdx ⟨(j 0).val, idx2_lt0 j⟩)).toInt = ((i 0).val : Int) ∧ (j 1).val = (i 1).val := by
  unfold ScatterDims.resultIdx?
  constructor
  · intro h
    split at h
    · rename_i hc
      have hi := Option.some.inj h
      have key : ∀ a, ((rowScatterDims N E C wf).start j idx a
          + ((rowScatterDims N E C wf).window j a : Int)).toNat = (i a).val :=
        fun a => congrArg Fin.val (congrFun hi a)
      have h0 := key 0
      have c0 := (hc 0).1
      have h1 := key 1
      rw [rowScatter_start0, rowScatter_window0] at h0 c0
      rw [rowScatter_start1, rowScatter_window1] at h1
      refine ⟨by omega, by omega⟩
    · exact absurd h (by simp)
  · rintro ⟨h0, h1⟩
    have hi0 := idx2_lt0 i
    have hj1 := idx2_lt1 j
    have hc : ∀ a, 0 ≤ (rowScatterDims N E C wf).start j idx a + ((rowScatterDims N E C wf).window j a : Int)
        ∧ (rowScatterDims N E C wf).start j idx a + ((rowScatterDims N E C wf).window j a : Int)
          < (((⟨2, ![N, C]⟩ : Shape).size a : Nat) : Int) := by
      intro a
      match a with
      | ⟨0, _⟩ =>
        show 0 ≤ (rowScatterDims N E C wf).start j idx 0 + ((rowScatterDims N E C wf).window j 0 : Int)
          ∧ (rowScatterDims N E C wf).start j idx 0 + ((rowScatterDims N E C wf).window j 0 : Int) < (N : Int)
        rw [rowScatter_start0, rowScatter_window0, h0]; omega
      | ⟨1, _⟩ =>
        show 0 ≤ (rowScatterDims N E C wf).start j idx 1 + ((rowScatterDims N E C wf).window j 1 : Int)
          ∧ (rowScatterDims N E C wf).start j idx 1 + ((rowScatterDims N E C wf).window j 1 : Int) < (C : Int)
        rw [rowScatter_start1, rowScatter_window1]; omega
    rw [dif_pos hc]
    congr 1
    funext a; refine Fin.ext ?_
    match a with
    | ⟨0, _⟩ =>
      show ((rowScatterDims N E C wf).start j idx 0 + ((rowScatterDims N E C wf).window j 0 : Int)).toNat = (i 0).val
      rw [rowScatter_start0, rowScatter_window0, h0]; omega
    | ⟨1, _⟩ =>
      show ((rowScatterDims N E C wf).start j idx 1 + ((rowScatterDims N E C wf).window j 1 : Int)).toNat = (i 1).val
      rw [rowScatter_start1, rowScatter_window1, ← h1]; omega

/-- The vector scatter's start on its one axis: edge `e`'s start, read signed. -/
theorem vecScatter_start0 {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) :
    (vecScatterDims N E wf).start j idx 0 = (idx (eIdx ⟨(j 0).val, (j 0).isLt⟩)).toInt := by
  unfold ScatterDims.start
  rw [dif_pos (show (0 : Fin 1) ∈ (vecScatterDims N E wf).scatterDimsToOperandDims from
    List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = eIdx ⟨(j 0).val, (j 0).isLt⟩ := by
    funext b; refine Fin.ext ?_
    match b with
    | ⟨0, _⟩ => rfl
    | ⟨1, _⟩ => rfl
  rw [hsi]
  rfl

/-- The vector scatter's window coordinate (its one axis is inserted): none. -/
theorem vecScatter_window0 {N E : Nat}
    (wf : ScatterDims.WF ⟨1, ![N]⟩ ⟨2, ![E, 1]⟩ ⟨1, ![E]⟩ [] [0] [0] 1)
    (j : (⟨1, ![E]⟩ : Shape).Idx) : (vecScatterDims N E wf).window j 0 = 0 := rfl

/-- WHERE A SCALAR UPDATE LANDS: update `e` lands on entry `n` exactly when edge `e`'s start, read signed and
    not clamped, is `n`. -/
theorem vecScatter_resultIdx {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx) :
    (vecScatterDims N E wf).resultIdx? j idx = some i
      ↔ (idx (eIdx ⟨(j 0).val, (j 0).isLt⟩)).toInt = ((i 0).val : Int) := by
  unfold ScatterDims.resultIdx?
  constructor
  · intro h
    split at h
    · rename_i hc
      have hi := Option.some.inj h
      have h0 : ((vecScatterDims N E wf).start j idx 0
          + ((vecScatterDims N E wf).window j 0 : Int)).toNat = (i 0).val :=
        congrArg Fin.val (congrFun hi 0)
      have c0 := (hc 0).1
      rw [vecScatter_start0, vecScatter_window0] at h0 c0
      omega
    · exact absurd h (by simp)
  · intro h0
    have hi0 : (i 0).val < N := (i 0).isLt
    have hc : ∀ a, 0 ≤ (vecScatterDims N E wf).start j idx a + ((vecScatterDims N E wf).window j a : Int)
        ∧ (vecScatterDims N E wf).start j idx a + ((vecScatterDims N E wf).window j a : Int)
          < (((⟨1, ![N]⟩ : Shape).size a : Nat) : Int) := by
      intro a
      obtain rfl : a = 0 := Subsingleton.elim _ _
      show 0 ≤ (vecScatterDims N E wf).start j idx 0 + ((vecScatterDims N E wf).window j 0 : Int)
        ∧ (vecScatterDims N E wf).start j idx 0 + ((vecScatterDims N E wf).window j 0 : Int) < (N : Int)
      rw [vecScatter_start0, vecScatter_window0, h0]; omega
    rw [dif_pos hc]
    congr 1
    funext a; refine Fin.ext ?_
    obtain rfl : a = 0 := Subsingleton.elim _ _
    show ((vecScatterDims N E wf).start j idx 0 + ((vecScatterDims N E wf).window j 0 : Int)).toNat = (i 0).val
    rw [vecScatter_start0, vecScatter_window0, h0]; omega

end Scatter

/-! ## A nonnegative real factor through a finite sum -/

/-- A nonnegative real factor distributes over every finite sum of extended reals, whatever its terms. -/
theorem sum_mul_coe {ι : Type*} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-! ## The law -/

/-- THE LAW. With every factor `dinv n` a nonnegative real: aggregating (at the destinations `dst`) the rows of
    the pre-scaled table `L · dinv` read at the sources `src`, and scaling row `n` of the result by `dinv n`, is
    aggregating the rows of `L` read at the sources, each scaled by the product of its two endpoint factors. -/
theorem agg_law {N E C w v : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (L : (⟨2, ![N, C]⟩ : Shape).Idx → EReal) (dinv : (⟨1, ![N]⟩ : Shape).Idx → EReal)
    (hd : ∀ n, ∃ r : ℝ, 0 ≤ r ∧ dinv n = (r : EReal))
    (src : IVec ⟨2, ![E, 1]⟩ w) (dst : IVec ⟨2, ![E, 1]⟩ v) (i : (⟨2, ![N, C]⟩ : Shape).Idx) :
    (Ideal.hostScatterAdd (rowScatterDims N E C wfS) (fun _ => (0 : EReal)) dst
        (Host.gather (rowGatherDims N E C wfG) (fun p => L p * dinv (ix1 ⟨(p 0).val, idx2_lt0 p⟩)) src)) i
      * dinv (ix1 ⟨(i 0).val, idx2_lt0 i⟩)
    = Ideal.hostScatterAdd (rowScatterDims N E C wfS) (fun _ => (0 : EReal)) dst
        (fun j => Host.gather (rowGatherDims N E C wfG) L src j
          * (Host.gather (vecGatherDims N E wfg) dinv src (ix1 ⟨(j 0).val, idx2_lt0 j⟩)
            * Host.gather (vecGatherDims N E wfg) dinv dst (ix1 ⟨(j 0).val, idx2_lt0 j⟩))) i := by
  obtain ⟨r, hr, hdr⟩ := hd (ix1 ⟨(i 0).val, idx2_lt0 i⟩)
  unfold Ideal.hostScatterAdd
  rw [zero_add, zero_add, hdr, sum_mul_coe _ _ r hr]
  refine Finset.sum_congr rfl (fun j hj => ?_)
  have hland := (rowScatter_resultIdx wfS dst j i).mp (Finset.mem_filter.mp hj).2
  have e1 : clampRow hN dst ⟨(j 0).val, idx2_lt0 j⟩ = ⟨(i 0).val, idx2_lt0 i⟩ :=
    clampRow_of_eq hN dst _ _ hland.1
  beta_reduce
  rw [rowGather_apply hN wfG, rowGather_apply hN wfG, vecGather_apply hN wfg, vecGather_apply hN wfg]
  show L (ix2 (clampRow hN src ⟨(j 0).val, idx2_lt0 j⟩) ⟨(j 1).val, idx2_lt1 j⟩)
        * dinv (ix1 (clampRow hN src ⟨(j 0).val, idx2_lt0 j⟩)) * (r : EReal)
      = L (ix2 (clampRow hN src ⟨(j 0).val, idx2_lt0 j⟩) ⟨(j 1).val, idx2_lt1 j⟩)
        * (dinv (ix1 (clampRow hN src ⟨(j 0).val, idx2_lt0 j⟩))
          * dinv (ix1 (clampRow hN dst ⟨(j 0).val, idx2_lt0 j⟩)))
  rw [e1, hdr, mul_assoc]

/-! ## The degree count -/

/-- Scatter-adding ones into zeros counts: entry `n` is the number of edges whose start, read signed, is `n`. -/
theorem degree_eq_card {N E w : Nat}
    (wf : ScatterDims.WF ⟨1, ![N]⟩ ⟨2, ![E, 1]⟩ ⟨1, ![E]⟩ [] [0] [0] 1)
    (idx : IVec ⟨2, ![E, 1]⟩ w) (n : (⟨1, ![N]⟩ : Shape).Idx) :
    Ideal.hostScatterAdd (vecScatterDims N E wf) (fun _ => (0 : EReal)) idx (fun _ => (1 : EReal)) n
      = (((Finset.univ.filter (fun j : (⟨1, ![E]⟩ : Shape).Idx =>
          (idx (eIdx ⟨(j 0).val, (j 0).isLt⟩)).toInt = ((n 0).val : Int))).card : ℝ) : EReal) := by
  unfold Ideal.hostScatterAdd
  rw [zero_add, Finset.sum_const, nsmul_one, EReal.coe_coe_eq_natCast]
  congr 2
  exact Finset.filter_congr (fun j _ => vecScatter_resultIdx wf idx j n)

/-- … so it is a natural number, a nonnegative real. -/
theorem degree_real {N E w : Nat}
    (wf : ScatterDims.WF ⟨1, ![N]⟩ ⟨2, ![E, 1]⟩ ⟨1, ![E]⟩ [] [0] [0] 1)
    (idx : IVec ⟨2, ![E, 1]⟩ w) (n : (⟨1, ![N]⟩ : Shape).Idx) :
    ∃ k : ℕ, Ideal.hostScatterAdd (vecScatterDims N E wf) (fun _ => (0 : EReal)) idx (fun _ => (1 : EReal)) n
      = ((k : ℝ) : EReal) :=
  ⟨_, degree_eq_card wf idx n⟩

/-! ## The host's accumulating scatter at the ideal instance -/

/-- At the ideal instance the host's accumulating float scatter IS the exact sum (definitional). -/
theorem scatterAdd_ideal {s si u : Shape} {φ : FTy} {w : Nat} (d : ScatterDims s si u) (x : FVec Ideal s φ)
    (idx : IVec si w) (upd : FVec Ideal u φ) :
    Host.scatterAdd (F := Ideal) d x idx upd = Ideal.hostScatterAdd d x idx upd := rfl

end SegNorm

end
-- ==== Proof.RefValue.lean ====
/-
  The value of the reference program, index by index.

  The reference adds every feature row onto the row of a zero table of 1000 rows and 128 columns that its class
  word names (a row scatter-add), adds a one per feature row onto the entry of a zero vector of length 1000 that
  the same word names (a scalar scatter-add), divides the first by the second clamped from below at one, and then
  chooses, entry by entry: the old prototype entry where the count is not positive; the quotient where the old
  prototype row sums to zero; otherwise the mixture of the old entry and the quotient with the two float constants
  kept as bit patterns.

  Read at row p and column c:
    * the row scatter-add is the zero of the zero table plus the sum, over the feature rows whose word read signed
      is p, of their column c: the class's column sum (class_sum_apply);
    * the scalar scatter-add of ones into zeros is the number of such rows: the class's count (class_count_apply);
    * the sum of a prototype row from the float zero is the row's total (row_total_apply).
  The remaining operations are elementwise or broadcasts, each read at one index of each operand, and the three
  facts above turn the composed term into the shared specification's entry (result_eq).
-/
import proofs.«417708_j51427938402447_2_alg».proof.Proof.RefRead
import proofs.«417708_j51427938402447_2_alg».proof.Proof.ClassMean
import proofs.«417708_j51427938402447_2_alg».proof.Proof.LibScatter
import proofs.«417708_j51427938402447_2_alg».proof.Proof.LibSegNorm
import Idealize.ShloMosaic.Lib.IdealHost
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.ReadP
open Idealize.ShloMosaic Idealize.ShloMosaic.ValueIdx

/-! ## The constant tables -/

/-- The table the row scatter-add starts from is zero everywhere. -/
theorem zero_table_apply (i : S1000x128.Idx) : val_main_v0 (F := Ideal) i = (0 : EReal) := by
  rw [val_main_v0_apply, val_main_cst_apply, Ideal.ofBits_def, Ideal.ofBits_zero_f32]

/-- The vector the scalar scatter-add starts from is zero everywhere. -/
theorem zero_vector_apply (i : S1000.Idx) : val_main_v4 (F := Ideal) i = (0 : EReal) := by
  rw [val_main_v4_apply, val_main_cst_1_apply, Ideal.ofBits_def, Ideal.ofBits_zero_f32]

/-- The vector of updates of the scalar scatter-add is one everywhere. -/
theorem one_vector_apply (i : S2000000.Idx) : val_main_v3 (F := Ideal) i = (1 : EReal) := by
  rw [val_main_v3_apply, val_main_cst_0_apply, Ideal.ofBits_def, Ideal.ofBits_one_f32]

/-! ## The index columns -/

/-- Row r of the first index column is feature row r's class word. -/
theorem index_column_apply (lbl : (⟨S2000000, .i32⟩ : BufTy).Contents (Elt Ideal)) (r : Fin 2000000) :
    val_main_v1 (F := Ideal) lbl (ix2 r (⟨0, Nat.one_pos⟩ : Fin 1)) = lbl (ix1 r) := by
  rw [val_main_v1_apply]
  exact congrArg lbl (funext fun a => by match a with | ⟨0, _⟩ => rfl)

/-- Row r of the second index column is feature row r's class word. -/
theorem index_column'_apply (lbl : (⟨S2000000, .i32⟩ : BufTy).Contents (Elt Ideal)) (r : Fin 2000000) :
    val_main_v5 (F := Ideal) lbl (SegNorm.eIdx r) = lbl (ix1 r) := by
  rw [val_main_v5_apply]
  exact congrArg lbl (funext fun a => by match a with | ⟨0, _⟩ => rfl)

/-! ## The two scatter-adds and the row sum -/

/-- The printed row-scatter record has the fields of the general row scatter at these sizes. -/
theorem row_record_eq :
    scatter_S1000x128_S2000000x1_S2000000x128_1_0_0_1
      = Cert.LibScatter.rowScatter 1000 2000000 128 Facts₀.scatter_S1000x128_S2000000x1_S2000000x128_1_0_0_1_wf := rfl

/-- The printed scalar-scatter record has the fields of the general scalar scatter at these sizes. -/
theorem vec_record_eq :
    scatter_S1000_S2000000x1_S2000000_n_0_0_1
      = SegNorm.vecScatterDims 1000 2000000 Facts₀.scatter_S1000_S2000000x1_S2000000_n_0_0_1_wf := rfl

/-- The row scatter-add read at (p, c) is the class's column sum. -/
theorem class_sum_apply (x : (⟨S2000000x128, .f32⟩ : BufTy).Contents (Elt Ideal))
    (lbl : (⟨S2000000, .i32⟩ : BufTy).Contents (Elt Ideal)) (p : Fin 1000) (c : Fin 128) :
    val_main_v2 (F := Ideal) x lbl (ix2 p c) = Cert.ClassMean.classSum x lbl p c := by
  unfold val_main_v2
  rw [SegNorm.scatterAdd_ideal, row_record_eq, Cert.LibScatter.scatterAdd_row_apply, zero_table_apply, zero_add]
  unfold Cert.ClassMean.classSum Cert.ClassMean.rowsOf
  refine Finset.sum_congr (Finset.filter_congr fun r _ => ?_) (fun _ _ => rfl)
  rw [index_column_apply]

/-- The scalar scatter-add read at p is the class's count. -/
theorem class_count_apply (lbl : (⟨S2000000, .i32⟩ : BufTy).Contents (Elt Ideal)) (p : Fin 1000) :
    val_main_v6 (F := Ideal) lbl (ix1 p) = Cert.ClassMean.classCount lbl p := by
  have h4 : val_main_v4 (F := Ideal) = fun _ => (0 : EReal) := funext zero_vector_apply
  have h3 : val_main_v3 (F := Ideal) = fun _ => (1 : EReal) := funext one_vector_apply
  unfold val_main_v6
  rw [SegNorm.scatterAdd_ideal, vec_record_eq, h4, h3, SegNorm.degree_eq_card]
  unfold Cert.ClassMean.classCount
  refine congrArg (fun n : ℕ => ((n : ℝ) : EReal)) ?_
  -- the rank-one indices the filter keeps correspond, through their one coordinate, to the class's rows
  refine Finset.card_bij (fun j _ => (⟨(j 0).val, (j 0).isLt⟩ : Fin 2000000)) ?_ ?_ ?_
  · intro j hj
    rw [Finset.mem_filter] at hj
    rw [Cert.ClassMean.mem_rowsOf]
    have h := hj.2
    rw [index_column'_apply] at h
    exact h
  · intro j₁ _ j₂ _ h
    have hv : (j₁ 0).val = (j₂ 0).val := congrArg Fin.val h
    funext a
    match a with
    | ⟨0, _⟩ => exact Fin.ext hv
  · intro r hr
    rw [Cert.ClassMean.mem_rowsOf] at hr
    refine ⟨ix1 r, ?_, rfl⟩
    rw [Finset.mem_filter]
    refine ⟨Finset.mem_univ _, ?_⟩
    rw [index_column'_apply]
    exact hr

/-- The prototype row's sum from the float zero, read at p, is the row's total. -/
theorem row_total_apply (pr : (⟨S1000x128, .f32⟩ : BufTy).Contents (Elt Ideal)) (p : Fin 1000) :
    val_main_v15 (F := Ideal) pr (ix1 p) = Cert.ClassMean.rowTotal pr p := by
  rw [val_main_v15_apply, val_main_cst_4_apply, Ideal.ofBits_def]
  unfold Cert.ClassMean.rowTotal
  refine congrArg (_ + ·) (Finset.sum_congr rfl fun k _ => congrArg pr ?_)
  funext a
  match a with
  | ⟨0, _⟩ => rfl
  | ⟨1, _⟩ => rfl

/-! ## The elementwise stages at (p, c) -/

/-- The count's comparison with zero, broadcast along the columns. -/
theorem count_positive_apply (lbl : (⟨S2000000, .i32⟩ : BufTy).Contents (Elt Ideal)) (p : Fin 1000) (c : Fin 128) :
    val_main_call1_v0 (F := Ideal) lbl (ix2 p c)
      = FloatOps.cmpf (F := Ideal) (φ := .f32) .ogt (Cert.ClassMean.classCount lbl p) (Ideal.ofBits .f32 0x00000000#32) := by
  have e : idx_main_v14 (idx_main_call1_v0 (ix2 p c)) = ix1 p := by
    funext a; match a with | ⟨0, _⟩ => rfl
  rw [val_main_call1_v0_apply, val_main_v14_apply, e, val_main_v13_apply, class_count_apply, val_main_v12_apply,
    val_main_cst_3_apply, Ideal.ofBits_def]

/-- The row total's comparison with zero, broadcast along the columns. -/
theorem total_zero_apply (pr : (⟨S1000x128, .f32⟩ : BufTy).Contents (Elt Ideal)) (p : Fin 1000) (c : Fin 128) :
    val_main_call0_v0 (F := Ideal) pr (ix2 p c)
      = FloatOps.cmpf (F := Ideal) (φ := .f32) .oeq (Cert.ClassMean.rowTotal pr p) (Ideal.ofBits .f32 0x00000000#32) := by
  have e : idx_main_v18 (idx_main_call0_v0 (ix2 p c)) = ix1 p := by
    funext a; match a with | ⟨0, _⟩ => rfl
  rw [val_main_call0_v0_apply, val_main_v18_apply, e, val_main_v17_apply, row_total_apply, val_main_v16_apply,
    val_main_cst_5_apply, Ideal.ofBits_def]

/-- The class mean: the column sum divided by the count clamped from below at one. -/
theorem mean_apply (x : (⟨S2000000x128, .f32⟩ : BufTy).Contents (Elt Ideal))
    (lbl : (⟨S2000000, .i32⟩ : BufTy).Contents (Elt Ideal)) (p : Fin 1000) (c : Fin 128) :
    val_main_v11 (F := Ideal) x lbl (ix2 p c)
      = Ideal.div (Cert.ClassMean.classSum x lbl p c)
          (max (Cert.ClassMean.classCount lbl p) (Ideal.ofBits .f32 0x3F800000#32)) := by
  have e : idx_main_v9 (idx_main_v10 (ix2 p c)) = ix1 p := by
    funext a; match a with | ⟨0, _⟩ => rfl
  rw [val_main_v11_apply, class_sum_apply, val_main_v10_apply, val_main_v9_apply, e, val_main_v8_apply,
    class_count_apply, val_main_v7_apply, val_main_cst_2_apply, Ideal.ofBits_def, Ideal.hostDivf_def,
    Ideal.maximumf_def]

/-! ## The result -/

/-- The reference's result is the updated prototype table of the shared specification. -/
theorem result_eq (x : (⟨S2000000x128, .f32⟩ : BufTy).Contents (Elt Ideal))
    (lbl : (⟨S2000000, .i32⟩ : BufTy).Contents (Elt Ideal)) (pr : (⟨S1000x128, .f32⟩ : BufTy).Contents (Elt Ideal)) :
    Cert.ReferenceIdeal.ReadP.val_main_v25 (F := Ideal) x lbl pr = Cert.ClassMean.updated x lbl pr := by
  funext j
  obtain ⟨p, c, rfl⟩ : ∃ (p : Fin 1000) (c : Fin 128), j = ix2 p c := ⟨j 0, j 1, eq_ix2 j⟩
  rw [Cert.ClassMean.updated_apply]
  rw [val_main_v25_apply, count_positive_apply, val_main_v24_apply, total_zero_apply, mean_apply,
    val_main_v23_apply, val_main_v20_apply, val_main_v19_apply, val_main_cst_6_apply, val_main_v22_apply,
    val_main_v21_apply, val_main_cst_7_apply, mean_apply, Ideal.ofBits_def, Ideal.ofBits_def, Ideal.addf_def,
    Ideal.mulf_def, Ideal.mulf_def]
  -- both sides are now the same nested choice over the class's sum, count, the row's total and the old entry
  unfold Cert.ClassMean.blend
  rfl

end Cert.ReferenceIdeal.RefValue

end
-- ==== Proof.FiniteRows.lean ====
/-
  Finiteness of the feature table, read out of the precondition.

  The precondition is the conjunction of two statements, one per float argument: every entry `a` of the table has
  `|a| < +∞`, where `|a|` is `max a (-a)` on the extended reals and `+∞` is the value of the 32-bit pattern
  `0x7F800000` (sign 0, exponent all ones, fraction 0). Each statement is an `and` over all entries of the
  one-bit answers of the comparison, started from 1; the whole is 1 only if every answer is 1.

  An extended real is `⊥`, `⊤` or a real. For `⊥` and for `⊤` the value `max a (-a)` is `⊤`, which is not
  strictly below `⊤`; so an entry that passes the comparison is a real. Only the first conjunct, the one about the
  table of 2,000,000 rows and 128 columns, is used here.
-/
import proofs.«417708_j51427938402447_2_alg».proof.Proof.Gen.Pre_finite_inputs
import Idealize.ShloMosaic.Lib.ReduceAll
import Idealize.ShloMosaic.Lib.ValueIdx
import Idealize.ShloMosaic.PureOps.Ideal.Laws
import Mathlib.Data.EReal.Basic

noncomputable section

namespace Cert.FiniteRows

open Idealize.ShloMosaic

/-- The shape with no axes has exactly one index. -/
instance : Subsingleton Cert.Pre_finite_inputs.S_.Idx := ⟨fun a b => funext fun d => d.elim0⟩

/-- The 32-bit pattern with sign 0, exponent all ones and fraction 0 denotes `+∞`. -/
theorem inf_bits : Ideal.ofBits .f32 0x7F800000#32 = (⊤ : EReal) := by
  simp [Ideal.ofBits, Ideal.ieee]

/-- An extended real whose absolute value `max a (-a)` is strictly below `⊤` is a real: at `⊥` the negation is
    `⊤`, at `⊤` the value itself is, and in both cases the maximum is `⊤`. -/
theorem real_of_abs_lt_top (a : EReal) (h : max a (-a) < ⊤) : ∃ r : ℝ, a = (r : EReal) := by
  induction a using EReal.rec with
  | bot =>
    rw [EReal.neg_bot, max_eq_right bot_le] at h
    exact absurd h (lt_irrefl _)
  | coe r => exact ⟨r, rfl⟩
  | top =>
    rw [max_eq_left le_top] at h
    exact absurd h (lt_irrefl _)

/-- A strict comparison of extended reals that answers 1 is a strict inequality. -/
theorem lt_of_cmp_olt (a b : EReal) (h : Ideal.cmp .olt a b = 1#1) : a < b := by
  change BitVec.ofBool (decide (a < b)) = 1#1 at h
  by_contra hn
  rw [decide_eq_false hn] at h
  exact absurd h (by decide)

/-- Under the precondition every entry of the feature table is a real. -/
theorem features_real (x : FVec Ideal Cert.Pre_finite_inputs.S2000000x128 .f32)
    (lbl : IVec Cert.Pre_finite_inputs.S2000000 32) (pr : FVec Ideal Cert.Pre_finite_inputs.S1000x128 .f32)
    (h : Cert.Pre_finite_inputs.fn (F := Ideal) x lbl pr = fun _ => 1#1) : ∀ i, ∃ r : ℝ, x i = (r : EReal) := by
  intro i
  -- the one-bit result at its one index
  have h0 := congrFun h ValueIdx.ix0
  dsimp only [Cert.Pre_finite_inputs.fn] at h0
  -- the conjunction: the first half speaks of the feature table
  obtain ⟨hx, _⟩ := IntOp.andi_eq_one.1 h0
  -- an `and` over all entries that is 1 met a 1 at entry `i`
  have hi := Host.reduce_andi_all _ _ _ _ _ hx i
  -- that entry's answer is the comparison `max (x i) (-(x i)) < +∞`
  have hlt : max (x i) (-(x i)) < (⊤ : EReal) := by
    have := lt_of_cmp_olt _ _ hi
    rw [← inf_bits]
    exact this
  exact real_of_abs_lt_top (x i) hlt

/-- The same at row `r`, column `c`. -/
theorem features_real_ix2 (x : FVec Ideal Cert.Pre_finite_inputs.S2000000x128 .f32)
    (lbl : IVec Cert.Pre_finite_inputs.S2000000 32) (pr : FVec Ideal Cert.Pre_finite_inputs.S1000x128 .f32)
    (h : Cert.Pre_finite_inputs.fn (F := Ideal) x lbl pr = fun _ => 1#1) (r : Fin 2000000) (c : Fin 128) :
    ∃ v : ℝ, x (ValueIdx.ix2 r c) = (v : EReal) :=
  features_real x lbl pr h (ValueIdx.ix2 r c)

/-- The feature table is the coercion of a table of reals. -/
theorem features_real_table (x : FVec Ideal Cert.Pre_finite_inputs.S2000000x128 .f32)
    (lbl : IVec Cert.Pre_finite_inputs.S2000000 32) (pr : FVec Ideal Cert.Pre_finite_inputs.S1000x128 .f32)
    (h : Cert.Pre_finite_inputs.fn (F := Ideal) x lbl pr = fun _ => 1#1) :
    ∃ f : Fin 2000000 → Fin 128 → ℝ, ∀ r c, x (ValueIdx.ix2 r c) = (f r c : EReal) :=
  ⟨fun r c => (features_real_ix2 x lbl pr h r c).choose,
    fun r c => (features_real_ix2 x lbl pr h r c).choose_spec⟩

end Cert.FiniteRows

end
-- ==== Proof.TilePieces.lean ====
/-
  What one grid point leaves in the two running tiles, as values.

  The body keeps two [1024,128] tiles across the grid points of a half: the running class sums and the running
  class counts. At the first point of a half it stores zeros into both and then adds the point's contribution;
  at every later point it adds the point's contribution to what the point before left; at the last point of a
  half it also copies both tiles into the two output blocks. Each lemma below reads one tile (or one output
  block) after one point as the stored value: the sums' update of the point's feature block, class-word block
  and the tile before, or the counts' update of the class-word block and the tile before.
-/
import proofs.«417708_j51427938402447_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Tile

open Cert.KernelIdeal Cert.KernelIdeal.Gen

variable {F : FTy → Type} [FloatOps F]

theorem hz : (![0, 0] : Fin 2 → Nat) = fun _ => 0 := funext fun a => by fin_cases a <;> rfl

/-- First point of a half: the running sums are the update of the zero tile. -/
theorem sums_first (c : Dev nD) (i : grid0.Coords) (a2 : Memref sig .tc .vmem S1000x128 .f32) (h2 : a2.IsWhole) (a3 : Memref sig .tc .vmem S1000x1 .i32) (h3 : a3.IsWhole) (a4 : Memref sig .tc .vmem S1024x128 .f32) (h4 : a4.IsWhole) (a5 : Memref sig .tc .vmem S1024x128 .f32) (h5 : a5.IsWhole) (a6 : Memref sig .tc .vmem S1024x128 .f32) (h6 : a6.IsWhole) (a7 : Memref sig .tc .vmem S1024x128 .f32) (h7 : a7.IsWhole) (hc0 : cond0_0 i) (hc1 : ¬cond0_1 i)
    (x0 : Vec F S1000x128 .f32) (x1 : Vec F S1000x1 .i32) :
    sout0_A_0 c i a2 h2 a3 h3 a4 h4 a5 h5 a6 h6 a7 h7 hc0 hc1 x0 x1 = k0_pay4 x0 x1 k0_pay1 := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S1024x128) hz, View.readCov_unit_zero (S := S1024x128) _ hz]
  simp only [View.readAt_eq_ld, h2.read_unread, h3.read_unread, h6.read_unread, h7.read_unread,
    View.ld_unit_zero (S := S1000x128) hz, View.ld_unit_zero (S := S1000x1) hz, View.ld_unit_zero (S := S1024x128) hz]

/-- First point of a half: the running counts are the update of the zero tile. -/
theorem counts_first (c : Dev nD) (i : grid0.Coords) (a2 : Memref sig .tc .vmem S1000x128 .f32) (h2 : a2.IsWhole) (a3 : Memref sig .tc .vmem S1000x1 .i32) (h3 : a3.IsWhole) (a4 : Memref sig .tc .vmem S1024x128 .f32) (h4 : a4.IsWhole) (a5 : Memref sig .tc .vmem S1024x128 .f32) (h5 : a5.IsWhole) (a6 : Memref sig .tc .vmem S1024x128 .f32) (h6 : a6.IsWhole) (a7 : Memref sig .tc .vmem S1024x128 .f32) (h7 : a7.IsWhole) (hc0 : cond0_0 i) (hc1 : ¬cond0_1 i)
    (x0 : Vec F S1000x128 .f32) (x1 : Vec F S1000x1 .i32) :
    sout0_A_1 c i a2 h2 a3 h3 a4 h4 a5 h5 a6 h6 a7 h7 hc0 hc1 x0 x1 = k0_pay5 x1 k0_pay2 := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S1024x128) hz, View.readCov_unit_zero (S := S1024x128) _ hz]
  simp only [View.readAt_eq_ld, h2.read_unread, h3.read_unread, h6.read_unread, h7.read_unread,
    View.ld_unit_zero (S := S1000x128) hz, View.ld_unit_zero (S := S1000x1) hz, View.ld_unit_zero (S := S1024x128) hz]

/-- A middle point: the running sums are the update of what the point before left. -/
theorem sums_mid (c : Dev nD) (i : grid0.Coords) (a2 : Memref sig .tc .vmem S1000x128 .f32) (h2 : a2.IsWhole) (a3 : Memref sig .tc .vmem S1000x1 .i32) (h3 : a3.IsWhole) (a4 : Memref sig .tc .vmem S1024x128 .f32) (h4 : a4.IsWhole) (a5 : Memref sig .tc .vmem S1024x128 .f32) (h5 : a5.IsWhole) (a6 : Memref sig .tc .vmem S1024x128 .f32) (h6 : a6.IsWhole) (a7 : Memref sig .tc .vmem S1024x128 .f32) (h7 : a7.IsWhole) (hc0 : ¬cond0_0 i) (hc1 : ¬cond0_1 i)
    (x0 : Vec F S1000x128 .f32) (x1 : Vec F S1000x1 .i32) (xs0 xs1 : Vec F S1024x128 .f32) :
    sout0_B_0 c i a2 h2 a3 h3 a4 h4 a5 h5 a6 h6 a7 h7 hc0 hc1 x0 x1 xs0 xs1 = k0_pay4 x0 x1 xs0 := by
  unfold sout0_B_0
  rw [View.read_writes_eq_canon _ _ _ (scover0_B_0 c i a2 h2 a3 h3 a4 h4 a5 h5 a6 h6 a7 h7 hc0 hc1 x0 x1 xs0 xs1)]
  unfold kernelRun0_B
  dsimp only
  sl_unfold_words
  rw [View.canon_unit_zero hz]
  simp only [View.readAt_eq_ld, h2.read_unread, h3.read_unread, h6.read_unread, h7.read_unread,
    View.ld_unit_zero (S := S1000x128) hz, View.ld_unit_zero (S := S1000x1) hz, View.ld_unit_zero (S := S1024x128) hz]

/-- A middle point: the running counts are the update of what the point before left. -/
theorem counts_mid (c : Dev nD) (i : grid0.Coords) (a2 : Memref sig .tc .vmem S1000x128 .f32) (h2 : a2.IsWhole) (a3 : Memref sig .tc .vmem S1000x1 .i32) (h3 : a3.IsWhole) (a4 : Memref sig .tc .vmem S1024x128 .f32) (h4 : a4.IsWhole) (a5 : Memref sig .tc .vmem S1024x128 .f32) (h5 : a5.IsWhole) (a6 : Memref sig .tc .vmem S1024x128 .f32) (h6 : a6.IsWhole) (a7 : Memref sig .tc .vmem S1024x128 .f32) (h7 : a7.IsWhole) (hc0 : ¬cond0_0 i) (hc1 : ¬cond0_1 i)
    (x0 : Vec F S1000x128 .f32) (x1 : Vec F S1000x1 .i32) (xs0 xs1 : Vec F S1024x128 .f32) :
    sout0_B_1 c i a2 h2 a3 h3 a4 h4 a5 h5 a6 h6 a7 h7 hc0 hc1 x0 x1 xs0 xs1 = k0_pay5 x1 xs1 := by
  unfold sout0_B_1
  rw [View.read_writes_eq_canon _ _ _ (scover0_B_1 c i a2 h2 a3 h3 a4 h4 a5 h5 a6 h6 a7 h7 hc0 hc1 x0 x1 xs0 xs1)]
  unfold kernelRun0_B
  dsimp only
  sl_unfold_words
  rw [View.canon_unit_zero hz]
  simp only [View.readAt_eq_ld, h2.read_unread, h3.read_unread, h6.read_unread, h7.read_unread,
    View.ld_unit_zero (S := S1000x128) hz, View.ld_unit_zero (S := S1000x1) hz, View.ld_unit_zero (S := S1024x128) hz]

/-- Last point of a half: the running sums are the update of what the point before left. -/
theorem sums_last (c : Dev nD) (i : grid0.Coords) (a2 : Memref sig .tc .vmem S1000x128 .f32) (h2 : a2.IsWhole) (a3 : Memref sig .tc .vmem S1000x1 .i32) (h3 : a3.IsWhole) (a4 : Memref sig .tc .vmem S1024x128 .f32) (h4 : a4.IsWhole) (a5 : Memref sig .tc .vmem S1024x128 .f32) (h5 : a5.IsWhole) (a6 : Memref sig .tc .vmem S1024x128 .f32) (h6 : a6.IsWhole) (a7 : Memref sig .tc .vmem S1024x128 .f32) (h7 : a7.IsWhole) (hc0 : ¬cond0_0 i) (hc1 : cond0_1 i)
    (x0 : Vec F S1000x128 .f32) (x1 : Vec F S1000x1 .i32) (xs0 xs1 : Vec F S1024x128 .f32) :
    sout0_C_0 c i a2 h2 a3 h3 a4 h4 a5 h5 a6 h6 a7 h7 hc0 hc1 x0 x1 xs0 xs1 = k0_pay4 x0 x1 xs0 := by
  unfold sout0_C_0
  rw [View.read_writes_eq_canon _ _ _ (scover0_C_0 c i a2 h2 a3 h3 a4 h4 a5 h5 a6 h6 a7 h7 hc0 hc1 x0 x1 xs0 xs1)]
  unfold kernelRun0_C
  dsimp only
  sl_unfold_words
  rw [View.canon_unit_zero hz]
  simp only [View.readAt_eq_ld, h2.read_unread, h3.read_unread, h6.read_unread, h7.read_unread,
    View.ld_unit_zero (S := S1000x128) hz, View.ld_unit_zero (S := S1000x1) hz, View.ld_unit_zero (S := S1024x128) hz]

/-- Last point of a half: the running counts are the update of what the point before left. -/
theorem counts_last (c : Dev nD) (i : grid0.Coords) (a2 : Memref sig .tc .vmem S1000x128 .f32) (h2 : a2.IsWhole) (a3 : Memref sig .tc .vmem S1000x1 .i32) (h3 : a3.IsWhole) (a4 : Memref sig .tc .vmem S1024x128 .f32) (h4 : a4.IsWhole) (a5 : Memref sig .tc .vmem S1024x128 .f32) (h5 : a5.IsWhole) (a6 : Memref sig .tc .vmem S1024x128 .f32) (h6 : a6.IsWhole) (a7 : Memref sig .tc .vmem S1024x128 .f32) (h7 : a7.IsWhole) (hc0 : ¬cond0_0 i) (hc1 : cond0_1 i)
    (x0 : Vec F S1000x128 .f32) (x1 : Vec F S1000x1 .i32) (xs0 xs1 : Vec F S1024x128 .f32) :
    sout0_C_1 c i a2 h2 a3 h3 a4 h4 a5 h5 a6 h6 a7 h7 hc0 hc1 x0 x1 xs0 xs1 = k0_pay5 x1 xs1 := by
  unfold sout0_C_1
  rw [View.read_writes_eq_canon _ _ _ (scover0_C_1 c i a2 h2 a3 h3 a4 h4 a5 h5 a6 h6 a7 h7 hc0 hc1 x0 x1 xs0 xs1)]
  unfold kernelRun0_C
  dsimp only
  sl_unfold_words
  rw [View.canon_unit_zero hz]
  simp only [View.readAt_eq_ld, h2.read_unread, h3.read_unread, h6.read_unread, h7.read_unread,
    View.ld_unit_zero (S := S1000x128) hz, View.ld_unit_zero (S := S1000x1) hz, View.ld_unit_zero (S := S1024x128) hz]

/-- Last point of a half: the sums' output block is the running sums just updated. -/
theorem outSums_last (c : Dev nD) (i : grid0.Coords) (a2 : Memref sig .tc .vmem S1000x128 .f32) (h2 : a2.IsWhole) (a3 : Memref sig .tc .vmem S1000x1 .i32) (h3 : a3.IsWhole) (a4 : Memref sig .tc .vmem S1024x128 .f32) (h4 : a4.IsWhole) (a5 : Memref sig .tc .vmem S1024x128 .f32) (h5 : a5.IsWhole) (a6 : Memref sig .tc .vmem S1024x128 .f32) (h6 : a6.IsWhole) (a7 : Memref sig .tc .vmem S1024x128 .f32) (h7 : a7.IsWhole) (hc0 : ¬cond0_0 i) (hc1 : cond0_1 i)
    (x0 : Vec F S1000x128 .f32) (x1 : Vec F S1000x1 .i32) (xs0 xs1 : Vec F S1024x128 .f32) :
    out0_C_2 c i a2 h2 a3 h3 a4 h4 a5 h5 a6 h6 a7 h7 hc0 hc1 x0 x1 xs0 xs1 = k0_pay4 x0 x1 xs0 := by
  unfold out0_C_2
  rw [View.read_writes_eq_canon _ _ _ (cover0_C_2 c i a2 h2 a3 h3 a4 h4 a5 h5 a6 h6 a7 h7 hc0 hc1 x0 x1 xs0 xs1)]
  unfold kernelRun0_C
  dsimp only
  sl_unfold_words
  rw [View.canon_unit_zero hz, View.readCov_unit_zero (S := S1024x128) _ hz]
  simp only [View.readAt_eq_ld, h2.read_unread, h3.read_unread, h6.read_unread, h7.read_unread,
    View.ld_unit_zero (S := S1000x128) hz, View.ld_unit_zero (S := S1000x1) hz, View.ld_unit_zero (S := S1024x128) hz]

/-- Last point of a half: the counts' output block is the running counts just updated. -/
theorem outCounts_last (c : Dev nD) (i : grid0.Coords) (a2 : Memref sig .tc .vmem S1000x128 .f32) (h2 : a2.IsWhole) (a3 : Memref sig .tc .vmem S1000x1 .i32) (h3 : a3.IsWhole) (a4 : Memref sig .tc .vmem S1024x128 .f32) (h4 : a4.IsWhole) (a5 : Memref sig .tc .vmem S1024x128 .f32) (h5 : a5.IsWhole) (a6 : Memref sig .tc .vmem S1024x128 .f32) (h6 : a6.IsWhole) (a7 : Memref sig .tc .vmem S1024x128 .f32) (h7 : a7.IsWhole) (hc0 : ¬cond0_0 i) (hc1 : cond0_1 i)
    (x0 : Vec F S1000x128 .f32) (x1 : Vec F S1000x1 .i32) (xs0 xs1 : Vec F S1024x128 .f32) :
    out0_C_3 c i a2 h2 a3 h3 a4 h4 a5 h5 a6 h6 a7 h7 hc0 hc1 x0 x1 xs0 xs1 = k0_pay5 x1 xs1 := by
  unfold out0_C_3
  rw [View.read_writes_eq_canon _ _ _ (cover0_C_3 c i a2 h2 a3 h3 a4 h4 a5 h5 a6 h6 a7 h7 hc0 hc1 x0 x1 xs0 xs1)]
  unfold kernelRun0_C
  dsimp only
  sl_unfold_words
  rw [View.canon_unit_zero hz, View.readCov_unit_zero (S := S1024x128) _ hz]
  simp only [View.readAt_eq_ld, h2.read_unread, h3.read_unread, h6.read_unread, h7.read_unread,
    View.ld_unit_zero (S := S1000x128) hz, View.ld_unit_zero (S := S1000x1) hz, View.ld_unit_zero (S := S1024x128) hz]

end Cert.KernelIdeal.Tile

end
-- ==== Proof.TileFold.lean ====
/-
  The two running tiles over a half, as folds.

  The grid has 2000 points: point `n` is tile `n % 1000` of half `n / 1000`. After point `n` the running class sums
  are, by the three cases of the body, the sums' update of point `n`'s blocks applied to the zero tile when
  `n % 1000 = 0` and to what point `n - 1` left otherwise; likewise the running counts. So after point
  `1000·q + j` each is the fold of the updates over points `1000·q … 1000·q + j` from the zero tile, and at the
  last point of a half the two output blocks hold exactly these folds.
-/
import proofs.«417708_j51427938402447_2_alg».proof.Proof.TilePieces

noncomputable section

open Idealize.ShloMosaic Idealize.ShloMosaic.TcCoe Idealize.SL.Sem
open Idealize.ShloMosaic.Pipeline (Dat)

namespace Cert.KernelIdeal.Tile

open Cert.KernelIdeal Cert.KernelIdeal.Gen

variable {F : FTy → Type} [FloatOps F]
variable (m : (ℓ : Loc nD τ sig) → Buf (Elt F) ℓ)

/-- Point `n`'s block of feature rows, -/
abbrev featTile (c : Dev nD) (n : ℕ) (h : n < cfg0.N) : Vec F S1000x128 .f32 := iblk m c 0 ⟨n, h⟩
/-- and its block of class words. -/
abbrev wordTile (c : Dev nD) (n : ℕ) (h : n < cfg0.N) : Vec F S1000x1 .i32 := iblk m c 1 ⟨n, h⟩

/-- The running sums after point `n`, -/
def sumsAt (c : Dev nD) (n : ℕ) (h : n < cfg0.N) : Vec F S1024x128 .f32 := (outsAt0 m c n h).2.2.1
/-- the running counts after point `n`, -/
def countsAt (c : Dev nD) (n : ℕ) (h : n < cfg0.N) : Vec F S1024x128 .f32 := (outsAt0 m c n h).2.2.2
/-- and the two output blocks after point `n`. -/
def outSumsAt (c : Dev nD) (n : ℕ) (h : n < cfg0.N) : Vec F S1024x128 .f32 := (outsAt0 m c n h).1
def outCountsAt (c : Dev nD) (n : ℕ) (h : n < cfg0.N) : Vec F S1024x128 .f32 := (outsAt0 m c n h).2.1

theorem sumsAt_first (c : Dev nD) (n : ℕ) (h : n < cfg0.N) (h0 : n % 1000 = 0) :
    sumsAt m c n h = k0_pay4 (featTile m c n h) (wordTile m c n h) k0_pay1 := by
  have h1 : ¬(⟨n, h⟩ : Fin cfg0.N).val % 1000 = 999 := by dsimp only; omega
  unfold sumsAt
  rw [outsAt0_A m c ⟨n, h⟩ h0 h1]
  dsimp only
  exact sums_first c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
    (ms0_3 ⟨n, h⟩) (hs0_3 ⟨n, h⟩) scM0_0 (Memref.isWhole_whole _) scM0_1 (Memref.isWhole_whole _)
    ((hcond0_0 ⟨n, h⟩).mpr h0) (fun h' => h1 ((hcond0_1 ⟨n, h⟩).mp h')) (iblk m c 0 ⟨n, h⟩) (iblk m c 1 ⟨n, h⟩)

theorem countsAt_first (c : Dev nD) (n : ℕ) (h : n < cfg0.N) (h0 : n % 1000 = 0) :
    countsAt m c n h = k0_pay5 (wordTile m c n h) k0_pay2 := by
  have h1 : ¬(⟨n, h⟩ : Fin cfg0.N).val % 1000 = 999 := by dsimp only; omega
  unfold countsAt
  rw [outsAt0_A m c ⟨n, h⟩ h0 h1]
  dsimp only
  exact counts_first c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
    (ms0_3 ⟨n, h⟩) (hs0_3 ⟨n, h⟩) scM0_0 (Memref.isWhole_whole _) scM0_1 (Memref.isWhole_whole _)
    ((hcond0_0 ⟨n, h⟩).mpr h0) (fun h' => h1 ((hcond0_1 ⟨n, h⟩).mp h')) (iblk m c 0 ⟨n, h⟩) (iblk m c 1 ⟨n, h⟩)

theorem sumsAt_step (c : Dev nD) (n : ℕ) (h : n + 1 < cfg0.N) (h0 : ¬(n + 1) % 1000 = 0) :
    sumsAt m c (n + 1) h = k0_pay4 (featTile m c (n + 1) h) (wordTile m c (n + 1) h) (sumsAt m c n (Nat.lt_of_succ_lt h)) := by
  unfold sumsAt
  by_cases h1 : (n + 1) % 1000 = 999
  · rw [outsAt0_C m c ⟨n + 1, h⟩ h0 h1]
    dsimp only
    exact sums_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      (ms0_3 ⟨n + 1, h⟩) (hs0_3 ⟨n + 1, h⟩) scM0_0 (Memref.isWhole_whole _) scM0_1 (Memref.isWhole_whole _)
      (fun h' => h0 ((hcond0_0 ⟨n + 1, h⟩).mp h')) ((hcond0_1 ⟨n + 1, h⟩).mpr h1) (iblk m c 0 ⟨n + 1, h⟩) (iblk m c 1 ⟨n + 1, h⟩)
      (outsAt0 m c n (Nat.lt_of_succ_lt h)).2.2.1 (outsAt0 m c n (Nat.lt_of_succ_lt h)).2.2.2
  · rw [outsAt0_B m c ⟨n + 1, h⟩ h0 h1]
    dsimp only
    exact sums_mid c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      (ms0_3 ⟨n + 1, h⟩) (hs0_3 ⟨n + 1, h⟩) scM0_0 (Memref.isWhole_whole _) scM0_1 (Memref.isWhole_whole _)
      (fun h' => h0 ((hcond0_0 ⟨n + 1, h⟩).mp h')) (fun h' => h1 ((hcond0_1 ⟨n + 1, h⟩).mp h')) (iblk m c 0 ⟨n + 1, h⟩) (iblk m c 1 ⟨n + 1, h⟩)
      (outsAt0 m c n (Nat.lt_of_succ_lt h)).2.2.1 (outsAt0 m c n (Nat.lt_of_succ_lt h)).2.2.2

theorem countsAt_step (c : Dev nD) (n : ℕ) (h : n + 1 < cfg0.N) (h0 : ¬(n + 1) % 1000 = 0) :
    countsAt m c (n + 1) h = k0_pay5 (wordTile m c (n + 1) h) (countsAt m c n (Nat.lt_of_succ_lt h)) := by
  unfold countsAt
  by_cases h1 : (n + 1) % 1000 = 999
  · rw [outsAt0_C m c ⟨n + 1, h⟩ h0 h1]
    dsimp only
    exact counts_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      (ms0_3 ⟨n + 1, h⟩) (hs0_3 ⟨n + 1, h⟩) scM0_0 (Memref.isWhole_whole _) scM0_1 (Memref.isWhole_whole _)
      (fun h' => h0 ((hcond0_0 ⟨n + 1, h⟩).mp h')) ((hcond0_1 ⟨n + 1, h⟩).mpr h1) (iblk m c 0 ⟨n + 1, h⟩) (iblk m c 1 ⟨n + 1, h⟩)
      (outsAt0 m c n (Nat.lt_of_succ_lt h)).2.2.1 (outsAt0 m c n (Nat.lt_of_succ_lt h)).2.2.2
  · rw [outsAt0_B m c ⟨n + 1, h⟩ h0 h1]
    dsimp only
    exact counts_mid c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      (ms0_3 ⟨n + 1, h⟩) (hs0_3 ⟨n + 1, h⟩) scM0_0 (Memref.isWhole_whole _) scM0_1 (Memref.isWhole_whole _)
      (fun h' => h0 ((hcond0_0 ⟨n + 1, h⟩).mp h')) (fun h' => h1 ((hcond0_1 ⟨n + 1, h⟩).mp h')) (iblk m c 0 ⟨n + 1, h⟩) (iblk m c 1 ⟨n + 1, h⟩)
      (outsAt0 m c n (Nat.lt_of_succ_lt h)).2.2.1 (outsAt0 m c n (Nat.lt_of_succ_lt h)).2.2.2

/-- At the last point of a half the sums' output block is the running sums after that point. -/
theorem outSumsAt_last (c : Dev nD) (n : ℕ) (h : n < cfg0.N) (h1 : n % 1000 = 999) :
    outSumsAt m c n h = sumsAt m c n h := by
  have h0 : ¬(⟨n, h⟩ : Fin cfg0.N).val % 1000 = 0 := by dsimp only; omega
  unfold outSumsAt sumsAt
  rw [outsAt0_C m c ⟨n, h⟩ h0 h1]
  dsimp only
  exact (outSums_last c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
      (ms0_3 ⟨n, h⟩) (hs0_3 ⟨n, h⟩) scM0_0 (Memref.isWhole_whole _) scM0_1 (Memref.isWhole_whole _)
      (fun h' => h0 ((hcond0_0 ⟨n, h⟩).mp h')) ((hcond0_1 ⟨n, h⟩).mpr h1) (iblk m c 0 ⟨n, h⟩) (iblk m c 1 ⟨n, h⟩)
      (outsAt0 m c (n - 1) (Nat.lt_of_le_of_lt (Nat.sub_le _ _) h)).2.2.1 (outsAt0 m c (n - 1) (Nat.lt_of_le_of_lt (Nat.sub_le _ _) h)).2.2.2).trans
    (sums_last c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
      (ms0_3 ⟨n, h⟩) (hs0_3 ⟨n, h⟩) scM0_0 (Memref.isWhole_whole _) scM0_1 (Memref.isWhole_whole _)
      (fun h' => h0 ((hcond0_0 ⟨n, h⟩).mp h')) ((hcond0_1 ⟨n, h⟩).mpr h1) (iblk m c 0 ⟨n, h⟩) (iblk m c 1 ⟨n, h⟩)
      (outsAt0 m c (n - 1) (Nat.lt_of_le_of_lt (Nat.sub_le _ _) h)).2.2.1 (outsAt0 m c (n - 1) (Nat.lt_of_le_of_lt (Nat.sub_le _ _) h)).2.2.2).symm

/-- At the last point of a half the counts' output block is the running counts after that point. -/
theorem outCountsAt_last (c : Dev nD) (n : ℕ) (h : n < cfg0.N) (h1 : n % 1000 = 999) :
    outCountsAt m c n h = countsAt m c n h := by
  have h0 : ¬(⟨n, h⟩ : Fin cfg0.N).val % 1000 = 0 := by dsimp only; omega
  unfold outCountsAt countsAt
  rw [outsAt0_C m c ⟨n, h⟩ h0 h1]
  dsimp only
  exact (outCounts_last c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
      (ms0_3 ⟨n, h⟩) (hs0_3 ⟨n, h⟩) scM0_0 (Memref.isWhole_whole _) scM0_1 (Memref.isWhole_whole _)
      (fun h' => h0 ((hcond0_0 ⟨n, h⟩).mp h')) ((hcond0_1 ⟨n, h⟩).mpr h1) (iblk m c 0 ⟨n, h⟩) (iblk m c 1 ⟨n, h⟩)
      (outsAt0 m c (n - 1) (Nat.lt_of_le_of_lt (Nat.sub_le _ _) h)).2.2.1 (outsAt0 m c (n - 1) (Nat.lt_of_le_of_lt (Nat.sub_le _ _) h)).2.2.2).trans
    (counts_last c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
      (ms0_3 ⟨n, h⟩) (hs0_3 ⟨n, h⟩) scM0_0 (Memref.isWhole_whole _) scM0_1 (Memref.isWhole_whole _)
      (fun h' => h0 ((hcond0_0 ⟨n, h⟩).mp h')) ((hcond0_1 ⟨n, h⟩).mpr h1) (iblk m c 0 ⟨n, h⟩) (iblk m c 1 ⟨n, h⟩)
      (outsAt0 m c (n - 1) (Nat.lt_of_le_of_lt (Nat.sub_le _ _) h)).2.2.1 (outsAt0 m c (n - 1) (Nat.lt_of_le_of_lt (Nat.sub_le _ _) h)).2.2.2).symm

/-- The running sums after any point are the fold, over its half up to that point, of the sums' update from the
    zero tile. -/
theorem sumsAt_eq_fold (c : Dev nD) (t : ℕ) (ht : t < cfg0.N) (h' : 1000 * (t / 1000) + t % 1000 < cfg0.N) :
    sumsAt m c t ht
      = Pipeline.accAt (fun n h => k0_pay4 (featTile m c n h) (wordTile m c n h) k0_pay1)
          (fun n h acc => k0_pay4 (featTile m c n h) (wordTile m c n h) acc) (1000 * (t / 1000)) (t % 1000) h' :=
  Pipeline.eq_accAt_of_mod (sumsAt m c) 1000 _ _ (fun n h h0 => sumsAt_first m c n h h0)
    (fun n h h0 => sumsAt_step m c n h h0) (by decide) t ht h'

/-- The running counts after any point are the fold of the counts' update from the zero tile. -/
theorem countsAt_eq_fold (c : Dev nD) (t : ℕ) (ht : t < cfg0.N) (h' : 1000 * (t / 1000) + t % 1000 < cfg0.N) :
    countsAt m c t ht
      = Pipeline.accAt (fun n h => k0_pay5 (wordTile m c n h) k0_pay2)
          (fun n h acc => k0_pay5 (wordTile m c n h) acc) (1000 * (t / 1000)) (t % 1000) h' :=
  Pipeline.eq_accAt_of_mod (countsAt m c) 1000 _ _ (fun n h h0 => countsAt_first m c n h h0)
    (fun n h h0 => countsAt_step m c n h h0) (by decide) t ht h'

end Cert.KernelIdeal.Tile

end
-- ==== Proof.TileRows.lean ====
/-
  The blocks a grid point reads, as rows of the argument arrays.

  Point `n` of the grid (2000 points) reads block `n` of the feature table, rows `1000·n … 1000·n + 999` with all 128
  columns, and block `n` of the class words. The class words reach the kernel as a [2000000,1] column, the
  reshape of the [2000000] argument: its entry (i, 0) is the argument's entry i.
-/
import proofs.«417708_j51427938402447_2_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Tile

open Cert.KernelIdeal Cert.KernelIdeal.Gen

variable {F : FTy → Type} [FloatOps F]
variable (m : (ℓ : Loc nD τ sig) → Buf (Elt F) ℓ)

/-- Both input windows step one block along the rows per grid point and sit at column block 0. -/
theorem inputBlock_index : ∀ t : Fin cfg0.N,
    (win0_0.index t 0 = t.val ∧ win0_0.index t 1 = 0) ∧ (win0_1.index t 0 = t.val ∧ win0_1.index t 1 = 0) :=
  (by decide +kernel : ∀ t : Fin grid0.N,
    (win0_0.index t 0 = t.val ∧ win0_0.index t 1 = 0) ∧ (win0_1.index t 0 = t.val ∧ win0_1.index t 1 = 0))

/-- Row `k` of point `n`, as a row of the table. -/
def rowOf (n : ℕ) (h : n < cfg0.N) (k : Fin 1000) : Fin 2000000 :=
  ⟨1000 * n + k.val, by have : cfg0.N = 2000 := N_0; have := k.isLt; omega⟩

/-- The feature block of point `n` at (k, j) is the feature table at (1000·n + k, j). -/
theorem featBlock_apply (c : Dev nD) (n : ℕ) (h : n < cfg0.N) (k : Fin 1000) (j : Fin 128) :
    (iblk m c 0 ⟨n, h⟩ : Vec F S1000x128 .f32) (ix2 k j) = m ((c : Thread nD τ).loc main_arg0) (ix2 (rowOf n h k) j) := by
  have hi0 : win0_0.index ⟨n, h⟩ 0 = n := (inputBlock_index ⟨n, h⟩).1.1
  have hi1 : win0_0.index ⟨n, h⟩ 1 = 0 := (inputBlock_index ⟨n, h⟩).1.2
  unfold iblk
  rw [View.read_apply]
  show V m c main_arg0 _ = _
  rw [V_main_arg0]
  congr 1
  funext a
  apply Fin.ext
  match a with
  | ⟨0, _⟩ => show win0_0.index ⟨n, h⟩ 0 * 1000 + 1 * k.val = 1000 * n + k.val; rw [hi0]; omega
  | ⟨1, _⟩ => show win0_0.index ⟨n, h⟩ 1 * 128 + 1 * j.val = j.val; rw [hi1]; omega

/-- The class-word column the kernel reads is the reshape of the class-word argument. -/
theorem wordColumn_eq (c : Dev nD) :
    (V m c main_v0 : S2000000x1.Idx → Elt F .i32)
      = shapeCast S2000000x1 (m ((c : Thread nD τ).loc main_arg1)) shapeCasts_S2000000_S2000000x1 := by
  show StableHlo.after hostOps0 (fun b => m (c, b)) (Proc.devRef .tc main_v0) = _
  after_results
  rfl

/-- The class-word block of point `n` at (k, 0) is the class-word argument at 1000·n + k. -/
theorem wordBlock_apply (c : Dev nD) (n : ℕ) (h : n < cfg0.N) (k : Fin 1000) :
    (iblk m c 1 ⟨n, h⟩ : Vec F S1000x1 .i32) (ix2 k (0 : Fin 1)) = m ((c : Thread nD τ).loc main_arg1) (ix1 (rowOf n h k)) := by
  have hi0 : win0_1.index ⟨n, h⟩ 0 = n := (inputBlock_index ⟨n, h⟩).2.1
  have hi1 : win0_1.index ⟨n, h⟩ 1 = 0 := (inputBlock_index ⟨n, h⟩).2.2
  unfold iblk
  rw [View.read_apply]
  show V m c main_v0 _ = _
  rw [wordColumn_eq]
  refine shapeCast_apply _ _ _ _ ?_
  show (S2000000.rowMajor (ix1 (rowOf n h k))).val = (S2000000x1.rowMajor _).val
  rw [Shape.rowMajor_val_one, Shape.rowMajor_val_two]
  show (1000 * n + k.val) = (win0_1.index ⟨n, h⟩ 0 * 1000 + 1 * k.val) * 1 + (win0_1.index ⟨n, h⟩ 1 * 1 + 1 * 0)
  rw [hi0, hi1]; omega

end Cert.KernelIdeal.Tile

end
-- ==== Proof.OneHot.lean ====
/-
  The one-hot weight of a class word.

  A row's 32-bit class word `w` is compared for equality with the class number `r` written as a 32-bit word; the
  one-bit answer is widened to 32 bits and read as a signed integer, then as a real. For a class number below
  2³¹ that weight is 1 exactly when the word, read as a signed integer, is `r`, and 0 otherwise.
-/
import Idealize.ShloMosaic.PureOps.Ideal
import Mathlib.Data.EReal.Operations

noncomputable section

namespace Cert.ClassMean

open Idealize.ShloMosaic

/-- The weight of class word `w` for class number `r`. -/
def hot (w : BitVec 32) (r : ℕ) : EReal :=
  FloatOps.sitofp (F := Ideal) .f32 ((IntOp.cmpi .eq w (BitVec.ofNat 32 r)).setWidth 32)

/-- A word equals the word of a small number exactly when it reads, signed, as that number. -/
theorem word_eq_iff (w : BitVec 32) (r : ℕ) (hr : r < 2147483648) : w = BitVec.ofNat 32 r ↔ w.toInt = (r : ℤ) := by
  have hw := w.isLt
  rw [BitVec.toInt_eq_toNat_cond]
  constructor
  · rintro rfl
    rw [BitVec.toNat_ofNat]
    split <;> omega
  · intro h
    apply BitVec.eq_of_toNat_eq
    rw [BitVec.toNat_ofNat]
    split at h <;> omega

theorem hot_eq (w : BitVec 32) (r : ℕ) (hr : r < 2147483648) :
    hot w r = if w.toInt = (r : ℤ) then 1 else 0 := by
  unfold hot
  show (((((IntOp.cmpi .eq w (BitVec.ofNat 32 r)).setWidth 32).toInt : ℝ)) : EReal) = _
  by_cases h : w = BitVec.ofNat 32 r
  · rw [if_pos ((word_eq_iff w r hr).mp h)]
    have : IntOp.cmpi .eq w (BitVec.ofNat 32 r) = 1#1 := by
      show BitVec.ofBool (w == BitVec.ofNat 32 r) = 1#1
      rw [show (w == BitVec.ofNat 32 r) = true from beq_iff_eq.mpr h]; rfl
    rw [this]
    norm_num
  · rw [if_neg (fun h' => h ((word_eq_iff w r hr).mpr h'))]
    have : IntOp.cmpi .eq w (BitVec.ofNat 32 r) = 0#1 := by
      show BitVec.ofBool (w == BitVec.ofNat 32 r) = 0#1
      rw [show (w == BitVec.ofNat 32 r) = false from beq_eq_false_iff_ne.mpr h]; rfl
    rw [this]
    norm_num

/-- A weight times an entry keeps the entry of a row of the class and drops the others. -/
theorem hot_mul (w : BitVec 32) (r : ℕ) (hr : r < 2147483648) (v : EReal) :
    hot w r * v = if w.toInt = (r : ℤ) then v else 0 := by
  rw [hot_eq w r hr]
  split
  · exact one_mul v
  · exact zero_mul v

/-- A real entry minus itself is zero, so the weight times that difference is zero. -/
theorem hot_mul_sub_self (w : BitVec 32) (r : ℕ) (hr : r < 2147483648) (v : ℝ) :
    hot w r * ((v : EReal) - (v : EReal)) = 0 := by
  rw [← EReal.coe_sub, sub_self, EReal.coe_zero, mul_zero]

end Cert.ClassMean

end
-- ==== Proof.LibBlockOps.lean ====
/-
  BLOCK OPERATIONS READ AT AN ENTRY — a general lemma file (no program is named here).

  Facts about matrices of extended reals, each at an entry given by its two coordinates:
  • the product of an m×k block by a k×n block accumulated into the zero block — the contraction over the left factor's
    second axis and the right factor's first — is the sum over the contracted coordinate of the products of the entries;
  • a column (an a×1 block) broadcast over b columns reads, at (p, c), the column's entry in row p.
-/
import Idealize.ShloMosaic.PureOps.Ideal.Laws
import Idealize.ShloMosaic.Lib.ValueIdx
import Idealize.ShloMosaic.Lib.ValueLayout

noncomputable section

open scoped BigOperators

namespace BlockOps

open Idealize.ShloMosaic Idealize.ShloMosaic.ValueIdx

variable {m k n : Nat}

/-- The dimension numbers of the plain product of an m×k by a k×n matrix: contract the left factor's axis 1 with the
    right factor's axis 0; rows of the left and columns of the right survive. The argument is their well-formedness. -/
abbrev rowCol (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left factor's index at output entry (a, b) and contracted coordinate c is (a, c). -/
theorem rowCol_lhsIdx (w : DotDims.WF ⟨2, ![m, k]⟩ ⟨2, ![k, n]⟩ ⟨2, ![m, n]⟩ [1] [0] [0] [1] [] [])
    (a : Fin m) (b : Fin n) (c : Fin k) :
    (rowCol w).lhsIdx (ix2 a b) ((contrEquiv1 (rowCol w) k rfl rfl).symm c) = ix2 a c := by
  have c2 := contrEquiv1_symm_val (rowCol w) k rfl rfl c
  funext ax; apply Fin.ext
  match ax with
  | ⟨0, _⟩ => simp [DotDims.lhsIdx]; rfl
  | ⟨1, _⟩ => simp [DotDims.lhsIdx]; exact c2

/-- The right factor's index there is (c, b). -/
theorem rowCol_rhsIdx (w : DotDims.WF ⟨2, ![m, k]⟩ ⟨2, ![k, n]⟩ ⟨2, ![m, n]⟩ [1] [0] [0] [1] [] [])
    (a : Fin m) (b : Fin n) (c : Fin k) :
    (rowCol w).rhsIdx (ix2 a b) ((contrEquiv1 (rowCol w) k rfl rfl).symm c) = ix2 c b := by
  have c2 := contrEquiv1_symm_val (rowCol w) k rfl rfl c
  funext ax; apply Fin.ext
  match ax with
  | ⟨0, _⟩ => simp [DotDims.rhsIdx]; exact c2
  | ⟨1, _⟩ => simp [DotDims.rhsIdx]; rfl

/-- The block product into the zero block, at entry (a, b): the sum over c of A[a, c] · B[c, b]. At the ideal values. -/
theorem matmul_zero_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (rowCol w) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (rowCol w) k rfl rfl).symm]
  refine Finset.sum_congr rfl fun c _ => ?_
  rw [rowCol_lhsIdx, rowCol_rhsIdx]

/-- An a×1 column broadcast over b columns reads, at (p, c), the column's entry in row p. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end BlockOps

end
-- ==== Proof.TilePayload.lean ====
/-
  The tiles the kernel body stores, read at an entry, at the ideal values.

  One grid point of the kernel sees a tile `x` of 1000 rows and 128 columns, the rows' class words `l` (1000 × 1) and
  two running blocks of 1024 × 128 entries, the sums and the counts. It forms the one-bit table that compares row `k`'s
  class word with the column number `r` (1000 × 1024) and widens each bit to the weight `hot (l k) r`. Then
  • to the running sums it adds the product of the table's transpose with `x` beside `x − x` (1000 × 256), the two
    128-column halves of the 1024 × 256 product added: at (r, c) the sum over the rows k of weight · x[k, c], plus the
    sum over k of weight · (x[k, c] − x[k, c]);
  • to the running counts it adds the table's column sums, each spread over the 128 columns: at (r, c) the sum over k
    of the weight.
  The first grid point of a pass stores the zero tile into both blocks before that.
-/
import proofs.«417708_j51427938402447_2_alg».proof.Proof.Gen.KernelIdeal.Skeleton
import proofs.«417708_j51427938402447_2_alg».proof.Proof.OneHot
import proofs.«417708_j51427938402447_2_alg».proof.Proof.LibBlockOps
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Tile

open Cert.KernelIdeal Cert.KernelIdeal.Gen Cert.ClassMean Idealize.ShloMosaic Idealize.ShloMosaic.ValueIdx

/-! ## The zero tiles -/

/-- The zero tile stored into the running sums reads zero everywhere. -/
theorem zeroSums_apply (j : S1024x128.Idx) : k0_pay1 (F := Ideal) j = 0 := by
  unfold k0_pay1
  refine (congrFun (shapeCast_self _ _) j).trans ?_
  exact Ideal.ofBits_zero_f32

/-- The zero tile stored into the running counts reads zero everywhere. -/
theorem zeroCounts_apply (j : S1024x128.Idx) : k0_pay2 (F := Ideal) j = 0 := by
  unfold k0_pay2
  refine (congrFun (shapeCast_self _ _) j).trans ?_
  exact Ideal.ofBits_zero_f32

/-! ## The one-bit table and its weights -/

/-- The table at (k, r): row k's class word compared with the number r as a 32-bit word. -/
theorem table_apply (l : Vec Ideal S1000x1 .i32) (k : Fin 1000) (r : Fin 1024) :
    k0_pay3 (F := Ideal) l (ix2 k r) = IntOp.cmpi .eq (l (ix2 k (0 : Fin 1))) (BitVec.ofNat 32 r.val) := by
  unfold k0_pay3
  refine congrArg₂ (IntOp.cmpi .eq) ?_ ?_
  · refine (BlockOps.broadcastTo_a1_ab_apply _ _ k r).trans ?_
    exact congrFun (shapeCast_self l _) (ix2 k (0 : Fin 1))
  · exact iota_single_apply .tc S1000x1024 32 1 _ (ix2 k r)

/-- The weight at (k, r): the table's bit widened to 32 bits, read as a signed integer and then as a real. -/
theorem weight_apply (l : Vec Ideal S1000x1 .i32) (k : Fin 1000) (r : Fin 1024) :
    sitofp (F := Ideal) .f32 (extui 32 (k0_pay3 (F := Ideal) l) natLt_1_32) (ix2 k r)
      = hot (l (ix2 k (0 : Fin 1))) r.val := by
  show FloatOps.sitofp (F := Ideal) .f32 ((k0_pay3 (F := Ideal) l (ix2 k r)).setWidth 32) = _
  rw [table_apply]
  rfl

/-! ## The product of the table's transpose with a 1000 × 256 block

The product contracts the ROW axis of both factors: at output (r, n) and contracted row k the left factor is read at
(k, r) and the right factor at (k, n). -/

/-- The left factor's row coordinate is the contracted coordinate. -/
theorem lhs_axis0 (i : S1024x256.Idx) (q : dot_S1000x1024_S1000x256_S1024x256_0_0_1_1_n_n.contr.Idx) :
    (dot_S1000x1024_S1000x256_S1024x256_0_0_1_1_n_n.lhsIdx i q 0).val = (q ⟨0, by decide⟩).val :=
  dot_S1000x1024_S1000x256_S1024x256_0_0_1_1_n_n.lhsIdx_val_of_single rfl i q

/-- The left factor's column coordinate is the output's row. -/
theorem lhs_axis1 (i : S1024x256.Idx) (q : dot_S1000x1024_S1000x256_S1024x256_0_0_1_1_n_n.contr.Idx) :
    (dot_S1000x1024_S1000x256_S1024x256_0_0_1_1_n_n.lhsIdx i q 1).val = (i 0).val := by
  unfold DotDims.lhsIdx
  rw [dif_neg (show ¬(1 : Fin S1000x1024.rank) ∈ dot_S1000x1024_S1000x256_S1024x256_0_0_1_1_n_n.lhsBatch by decide),
    dif_pos (show (1 : Fin S1000x1024.rank) ∈ dot_S1000x1024_S1000x256_S1024x256_0_0_1_1_n_n.lhsNonContracting by decide)]
  rfl

/-- The right factor's row coordinate is the contracted coordinate. -/
theorem rhs_axis0 (i : S1024x256.Idx) (q : dot_S1000x1024_S1000x256_S1024x256_0_0_1_1_n_n.contr.Idx) :
    (dot_S1000x1024_S1000x256_S1024x256_0_0_1_1_n_n.rhsIdx i q 0).val = (q ⟨0, by decide⟩).val :=
  dot_S1000x1024_S1000x256_S1024x256_0_0_1_1_n_n.rhsIdx_val_of_single rfl i q

/-- The right factor's column coordinate is the output's column. -/
theorem rhs_axis1 (i : S1024x256.Idx) (q : dot_S1000x1024_S1000x256_S1024x256_0_0_1_1_n_n.contr.Idx) :
    (dot_S1000x1024_S1000x256_S1024x256_0_0_1_1_n_n.rhsIdx i q 1).val = (i 1).val := by
  unfold DotDims.rhsIdx
  rw [dif_neg (show ¬(1 : Fin S1000x256.rank) ∈ dot_S1000x1024_S1000x256_S1024x256_0_0_1_1_n_n.rhsBatch by decide),
    dif_pos (show (1 : Fin S1000x256.rank) ∈ dot_S1000x1024_S1000x256_S1024x256_0_0_1_1_n_n.rhsNonContracting by decide)]
  rfl

/-- The product into the zero block, at (r, n): the sum over the rows k of A[k, r] · B[k, n]. -/
theorem tileProduct_apply (A : FVec Ideal S1000x1024 .bf16) (B : FVec Ideal S1000x256 .bf16) (r : Fin 1024) (n : Fin 256) :
    matmul (F := Ideal) dot_S1000x1024_S1000x256_S1024x256_0_0_1_1_n_n none A B
        (constant (F := Ideal) S1024x256 .f32 0x00000000#32) (ix2 r n)
      = ∑ k : Fin 1000, A (ix2 k r) * B (ix2 k n) := by
  show FloatOps.matmul dot_S1000x1024_S1000x256_S1024x256_0_0_1_1_n_n none A B
        (constant (F := Ideal) S1024x256 .f32 0x00000000#32) (ix2 r n) = _
  rw [Ideal.matmul_constant_zero_apply,
    ← Equiv.sum_comp (contrEquiv1 dot_S1000x1024_S1000x256_S1024x256_0_0_1_1_n_n 1000 rfl rfl).symm]
  refine Finset.sum_congr rfl fun k _ => ?_
  have hk := contrEquiv1_symm_val dot_S1000x1024_S1000x256_S1024x256_0_0_1_1_n_n 1000 rfl rfl k
  have el : dot_S1000x1024_S1000x256_S1024x256_0_0_1_1_n_n.lhsIdx (ix2 r n)
      ((contrEquiv1 dot_S1000x1024_S1000x256_S1024x256_0_0_1_1_n_n 1000 rfl rfl).symm k) = ix2 k r :=
    funext fun a => Fin.ext (by
      match a with
      | ⟨0, _⟩ => exact (lhs_axis0 _ _).trans hk
      | ⟨1, _⟩ => exact lhs_axis1 _ _)
  have er : dot_S1000x1024_S1000x256_S1024x256_0_0_1_1_n_n.rhsIdx (ix2 r n)
      ((contrEquiv1 dot_S1000x1024_S1000x256_S1024x256_0_0_1_1_n_n 1000 rfl rfl).symm k) = ix2 k n :=
    funext fun a => Fin.ext (by
      match a with
      | ⟨0, _⟩ => exact (rhs_axis0 _ _).trans hk
      | ⟨1, _⟩ => exact rhs_axis1 _ _)
  rw [el, er]

/-! ## Two blocks side by side, and the two halves of a block -/

/-- Column c of the left half of 256 columns. -/
def colL (c : Fin 128) : Fin 256 := ⟨c.val, by have := c.isLt; omega⟩

/-- Column c of the right half of 256 columns. -/
def colR (c : Fin 128) : Fin 256 := ⟨128 + c.val, by have := c.isLt; omega⟩

/-- Two 1000 × 128 blocks side by side, read in a column of the left half: the left block. -/
theorem beside_left_apply (u v : FVec Ideal S1000x128 .bf16) (k : Fin 1000) (c : Fin 128) :
    concatenate S1000x256 1 [⟨S1000x128, u⟩, ⟨S1000x128, v⟩] concatenates_S1000x128_S1000x128_S1000x256_d1 (ix2 k (colL c))
      = u (ix2 k c) :=
  concatenate_pair_apply_left (1 : Fin S1000x256.rank) u v _ (ix2 k (colL c)) rfl (ix2 k c) fun b => by
    match b with
    | ⟨0, _⟩ => rfl
    | ⟨1, _⟩ => rfl

/-- Two 1000 × 128 blocks side by side, read in a column of the right half: the right block. -/
theorem beside_right_apply (u v : FVec Ideal S1000x128 .bf16) (k : Fin 1000) (c : Fin 128) :
    concatenate S1000x256 1 [⟨S1000x128, u⟩, ⟨S1000x128, v⟩] concatenates_S1000x128_S1000x128_S1000x256_d1 (ix2 k (colR c))
      = v (ix2 k c) :=
  concatenate_pair_apply_right (1 : Fin S1000x256.rank) u v _ (ix2 k (colR c)) rfl rfl (ix2 k c)
    (fun b hb => by
      match b with
      | ⟨0, _⟩ => rfl
      | ⟨1, _⟩ => exact absurd rfl hb)
    (by show c.val + 128 = 128 + c.val; omega)

/-- The two 128-column halves of a 1024 × 256 block, added: at (r, c) the block at (r, c) plus the block at (r, 128 + c). -/
theorem halves_apply (V : FVec Ideal S1024x256 .f32) (r : Fin 1024) (c : Fin 128) :
    addf (extractStridedSlice S1024x128 ![0, 0] V slices_S1024x256_o0_0_S1024x128)
        (extractStridedSlice S1024x128 ![0, 128] V slices_S1024x256_o0_128_S1024x128) (ix2 r c)
      = V (ix2 r (colL c)) + V (ix2 r (colR c)) := by
  refine (addf_apply _ _ _).trans ?_
  refine congrArg₂ (· + ·) ?_ ?_
  · exact slice2_axis1_apply 0 V _ r c (colL c) (Nat.zero_add _).symm
  · exact slice2_axis1_apply 128 V _ r c (colR c) rfl

/-! ## The running sums -/

/-- The running sums the body stores, at (r, c): the old entry plus the weighted sum of column c of the tile over the
    rows, plus the weighted sum of the column's difference with itself. -/
theorem tileSums_apply (x : Vec Ideal S1000x128 .f32) (l : Vec Ideal S1000x1 .i32) (acc : Vec Ideal S1024x128 .f32)
    (r : Fin 1024) (c : Fin 128) :
    k0_pay4 (F := Ideal) x l acc (ix2 r c)
      = acc (ix2 r c) + ((∑ k : Fin 1000, hot (l (ix2 k (0 : Fin 1))) r.val * x (ix2 k c))
          + ∑ k : Fin 1000, hot (l (ix2 k (0 : Fin 1))) r.val * (x (ix2 k c) - x (ix2 k c))) := by
  unfold k0_pay4
  refine (congrFun (shapeCast_self _ _) (ix2 r c)).trans ?_
  refine (addf_apply _ _ _).trans ?_
  refine congrArg (acc (ix2 r c) + ·) ?_
  refine (halves_apply _ r c).trans ?_
  refine congrArg₂ (· + ·) ?_ ?_
  · refine (tileProduct_apply _ _ r (colL c)).trans ?_
    refine Finset.sum_congr rfl fun k _ => ?_
    refine congrArg₂ (· * ·) (weight_apply l k r) ?_
    exact beside_left_apply _ _ k c
  · refine (tileProduct_apply _ _ r (colR c)).trans ?_
    refine Finset.sum_congr rfl fun k _ => ?_
    refine congrArg₂ (· * ·) (weight_apply l k r) ?_
    exact beside_right_apply _ _ k c

/-! ## The running counts -/

/-- The column sums of a 1000 × 1024 block, at r: the sum over the rows k of the block at (k, r). -/
theorem columnSum_apply (W : FVec Ideal S1000x1024 .f32) (r : Fin 1024) :
    multiReduction (F := Ideal) .add [0] S1024 W 0x00000000#32 reduces_S1000x1024_S1024 (.inl rfl) rfl (ix1 r)
      = ∑ k : Fin 1000, W (ix2 k r) := by
  refine (Ideal.multiReduction_add_single W _ reduces_S1000x1024_S1024 (.inl rfl) rfl (ix1 r)).trans ?_
  refine Finset.sum_congr rfl fun k _ => congrArg W ?_
  funext a
  apply Fin.ext
  match a with
  | ⟨0, _⟩ => rfl
  | ⟨1, _⟩ => rfl

/-- A vector of 1024 entries viewed as a column reads, in row r, the vector's entry r. -/
theorem column_apply (v : FVec Ideal S1024 .f32) (r : Fin 1024) :
    shapeCast S1024x1 v shapeCasts_S1024_S1024x1 (ix2 r (0 : Fin 1)) = v (ix1 r) :=
  shapeCast_apply v _ _ _ (by
    rw [Shape.rowMajor_val_two, Shape.rowMajor_val_one]
    show r.val = r.val * 1 + 0
    omega)

/-- The running counts the body stores, at (r, c): the old entry plus the sum of the weights over the rows. -/
theorem tileCounts_apply (l : Vec Ideal S1000x1 .i32) (acc : Vec Ideal S1024x128 .f32) (r : Fin 1024) (c : Fin 128) :
    k0_pay5 (F := Ideal) l acc (ix2 r c) = acc (ix2 r c) + ∑ k : Fin 1000, hot (l (ix2 k (0 : Fin 1))) r.val := by
  unfold k0_pay5
  refine (congrFun (shapeCast_self _ _) (ix2 r c)).trans ?_
  refine (addf_apply _ _ _).trans ?_
  refine congrArg (acc (ix2 r c) + ·) ?_
  refine (BlockOps.broadcastTo_a1_ab_apply _ _ r c).trans ?_
  refine (congrFun (shapeCast_self _ _) (ix2 r (0 : Fin 1))).trans ?_
  refine (column_apply _ r).trans ?_
  refine (columnSum_apply _ r).trans ?_
  exact Finset.sum_congr rfl fun k _ => weight_apply l k r

end Cert.KernelIdeal.Tile

end
-- ==== Proof.TileSums.lean ====
/-
  The two output arrays of the kernel, entry by entry, at the ideal values and for real feature entries.

  With every feature entry a real number, point `n` adds to the running sums at (r, j) the entries (k, j) of its
  1000 feature rows whose class word is `r` (`pointSum`), and to the running counts at (r, j) the number of those
  rows (`pointCount`): the one-hot weight times an entry keeps or drops the entry, and the weight times the
  residue `x − x` is zero for a real `x`. A half's fold from the zero tile is then the sum of its 1000 points'
  contributions (`halfSums`, `halfCounts`), which the last point of the half copies to block `q` of the output
  arrays; the two blocks tile the [2048,128] arrays, so the arrays end as `sumsArray` and `countsArray`.
-/
import proofs.«417708_j51427938402447_2_alg».proof.Proof.TileFold
import proofs.«417708_j51427938402447_2_alg».proof.Proof.TileRows
import proofs.«417708_j51427938402447_2_alg».proof.Proof.TilePayload
import proofs.«417708_j51427938402447_2_alg».proof.Proof.ClassMean

noncomputable section

open scoped BigOperators

open Idealize.ShloMosaic Idealize.ShloMosaic.TcCoe Idealize.SL.Sem Idealize.ShloMosaic.ValueIdx
open Idealize.ShloMosaic.Pipeline (Dat)

namespace Cert.KernelIdeal.Tile

open Cert.KernelIdeal Cert.KernelIdeal.Gen Cert.ClassMean

variable (m : (ℓ : Loc nD τ sig) → Buf (Elt Ideal) ℓ)

/-- The feature table and the class words, as launched. -/
abbrev feats (c : Dev nD) : SFeat.Idx → EReal := m ((c : Thread nD τ).loc main_arg0)
abbrev words (c : Dev nD) : SLab.Idx → BitVec 32 := m ((c : Thread nD τ).loc main_arg1)

theorem featTile_apply (c : Dev nD) (n : ℕ) (h : n < cfg0.N) (k : Fin 1000) (j : Fin 128) :
    featTile m c n h (ix2 k j) = feats m c (ix2 (rowOf n h k) j) := featBlock_apply m c n h k j

theorem wordTile_apply (c : Dev nD) (n : ℕ) (h : n < cfg0.N) (k : Fin 1000) :
    wordTile m c n h (ix2 k (0 : Fin 1)) = words m c (ix1 (rowOf n h k)) := wordBlock_apply m c n h k

/-- What point `n` adds to the running sums at an entry: the entries of its rows of that class, in that column. -/
def pointSum (c : Dev nD) (n : ℕ) (i : S1024x128.Idx) : EReal :=
  if h : n < cfg0.N then
    ∑ k : Fin 1000, if (words m c (ix1 (rowOf n h k))).toInt = ((i 0).val : ℤ)
      then feats m c (ix2 (rowOf n h k) ⟨(i 1).val, idx2_lt1 i⟩) else 0
  else 0

/-- What point `n` adds to the running counts at an entry: the number of its rows of that class. -/
def pointCount (c : Dev nD) (n : ℕ) (i : S1024x128.Idx) : EReal :=
  if h : n < cfg0.N then
    ∑ k : Fin 1000, if (words m c (ix1 (rowOf n h k))).toInt = ((i 0).val : ℤ) then (1 : EReal) else 0
  else 0

variable (hfin : ∀ (c : Dev nD) (i : SFeat.Idx), ∃ v : ℝ, feats m c i = (v : EReal))
include hfin

/-- The sums' update adds the point's contribution. -/
theorem sumsUpdate_apply (c : Dev nD) (n : ℕ) (h : n < cfg0.N) (acc : Vec Ideal S1024x128 .f32) (i : S1024x128.Idx) :
    k0_pay4 (F := Ideal) (featTile m c n h) (wordTile m c n h) acc i = acc i + pointSum m c n i := by
  obtain ⟨r, j, rfl⟩ : ∃ (r : Fin 1024) (j : Fin 128), i = ix2 r j := ⟨i 0, i 1, eq_ix2 i⟩
  rw [tileSums_apply]
  congr 1
  unfold pointSum
  rw [dif_pos h]
  have hr : r.val < 2147483648 := by have := r.isLt; omega
  have hres : ∑ k : Fin 1000, hot (wordTile m c n h (ix2 k (0 : Fin 1))) r.val
      * (featTile m c n h (ix2 k j) - featTile m c n h (ix2 k j)) = 0 :=
    Finset.sum_eq_zero fun k _ => by
      rw [featTile_apply]
      obtain ⟨v, hv⟩ := hfin c (ix2 (rowOf n h k) j)
      rw [hv]
      exact hot_mul_sub_self _ _ hr v
  rw [hres, add_zero]
  refine Finset.sum_congr rfl fun k _ => ?_
  rw [hot_mul _ _ hr, wordTile_apply, featTile_apply]

omit hfin in
/-- The counts' update adds the point's count. -/
theorem countsUpdate_apply (c : Dev nD) (n : ℕ) (h : n < cfg0.N) (acc : Vec Ideal S1024x128 .f32) (i : S1024x128.Idx) :
    k0_pay5 (F := Ideal) (wordTile m c n h) acc i = acc i + pointCount m c n i := by
  obtain ⟨r, j, rfl⟩ : ∃ (r : Fin 1024) (j : Fin 128), i = ix2 r j := ⟨i 0, i 1, eq_ix2 i⟩
  rw [tileCounts_apply]
  congr 1
  unfold pointCount
  rw [dif_pos h]
  have hr : r.val < 2147483648 := by have := r.isLt; omega
  refine Finset.sum_congr rfl fun k _ => ?_
  rw [hot_eq _ _ hr, wordTile_apply]

/-- The running sums after point `t`: the contributions of its half's points up to `t`. -/
theorem sumsAt_apply (c : Dev nD) (t : ℕ) (ht : t < cfg0.N) (i : S1024x128.Idx) :
    sumsAt m c t ht i = ∑ s ∈ Finset.range (t % 1000 + 1), pointSum m c (1000 * (t / 1000) + s) i := by
  have h' : 1000 * (t / 1000) + t % 1000 < cfg0.N := by rw [Nat.div_add_mod]; exact ht
  rw [sumsAt_eq_fold m c t ht h']
  have hmod : t % 1000 < 1000 := Nat.mod_lt _ (by decide)
  refine (Pipeline.accAt_add_apply _ _ (fun _ => (0 : EReal)) (pointSum m c) (1000 * (t / 1000)) 999
    (fun h i => ?_) (fun n h acc i _ _ => ?_) (t % 1000) (by omega) h' i).trans (zero_add _)
  · rw [sumsUpdate_apply m hfin c _ h, zeroSums_apply]
  · exact sumsUpdate_apply m hfin c n h acc i

omit hfin in
/-- The running counts after point `t`: the counts of its half's points up to `t`. -/
theorem countsAt_apply (c : Dev nD) (t : ℕ) (ht : t < cfg0.N) (i : S1024x128.Idx) :
    countsAt m c t ht i = ∑ s ∈ Finset.range (t % 1000 + 1), pointCount m c (1000 * (t / 1000) + s) i := by
  have h' : 1000 * (t / 1000) + t % 1000 < cfg0.N := by rw [Nat.div_add_mod]; exact ht
  rw [countsAt_eq_fold m c t ht h']
  have hmod : t % 1000 < 1000 := Nat.mod_lt _ (by decide)
  refine (Pipeline.accAt_add_apply _ _ (fun _ => (0 : EReal)) (pointCount m c) (1000 * (t / 1000)) 999
    (fun h i => ?_) (fun n h acc i _ _ => ?_) (t % 1000) (by omega) h' i).trans (zero_add _)
  · rw [countsUpdate_apply m c _ h, zeroCounts_apply]
  · exact countsUpdate_apply m c n h acc i

/-! ## The output arrays -/

omit hfin in
/-- Both output windows sit at row block `t / 1000`, column block 0. -/
theorem outputBlock_index : ∀ t : Fin cfg0.N,
    (win0_2.index t 0 = t.val / 1000 ∧ win0_2.index t 1 = 0) ∧ (win0_3.index t 0 = t.val / 1000 ∧ win0_3.index t 1 = 0) :=
  (by decide +kernel : ∀ t : Fin grid0.N,
    (win0_2.index t 0 = t.val / 1000 ∧ win0_2.index t 1 = 0) ∧ (win0_3.index t 0 = t.val / 1000 ∧ win0_3.index t 1 = 0))

/-- Half `q`'s class sums and counts: its 1000 points' contributions. -/
def halfSums (c : Dev nD) (q : ℕ) (i : S1024x128.Idx) : EReal := ∑ s ∈ Finset.range 1000, pointSum m c (1000 * q + s) i
def halfCounts (c : Dev nD) (q : ℕ) (i : S1024x128.Idx) : EReal := ∑ s ∈ Finset.range 1000, pointCount m c (1000 * q + s) i

/-- The [2048,128] arrays: row `1024·q + r` holds half `q`'s row `r`. -/
def sumsArray (c : Dev nD) : S2048x128.Idx → EReal := fun i =>
  halfSums m c ((i 0).val / 1024) (ix2 (⟨(i 0).val % 1024, Nat.mod_lt _ (by decide)⟩ : Fin 1024) (⟨(i 1).val, idx2_lt1 i⟩ : Fin 128))
def countsArray (c : Dev nD) : S2048x128.Idx → EReal := fun i =>
  halfCounts m c ((i 0).val / 1024) (ix2 (⟨(i 0).val % 1024, Nat.mod_lt _ (by decide)⟩ : Fin 1024) (⟨(i 1).val, idx2_lt1 i⟩ : Fin 128))

/-- What the last point of a half writes back to the sums array is its block of `sumsArray`. -/
theorem flushedSums_eq (c : Dev nD) (t : Fin cfg0.N) (hf : (cfg0.win 2).flush t = true) :
    (dats m 0 c).flushed 2 t = ((cfg0.win 2).blk t).view.read (Elt Ideal) (sumsArray m c) := by
  have h999 : t.val % 1000 = 999 := (flush0_2 t).mp hf
  have hi0 : win0_2.index t 0 = t.val / 1000 := (outputBlock_index t).1.1
  have hi1 : win0_2.index t 1 = 0 := (outputBlock_index t).1.2
  show (cfg0.win 2).cut (grid0.coords t) ((dats m 0 c).after 2 t) = _
  rw [after0_2]
  funext y
  have hy0 : (y 0).val < 1024 := (y 0).isLt
  have hy1 : (y 1).val < 128 := (y 1).isLt
  show outSumsAt m c t.val t.isLt y = sumsArray m c (((cfg0.win 2).blk t).view.emb y)
  rw [outSumsAt_last m c t.val t.isLt h999, sumsAt_apply m hfin c t.val t.isLt y, h999]
  unfold sumsArray halfSums
  have e0 : ((((cfg0.win 2).blk t).view.emb y) 0).val = win0_2.index t 0 * 1024 + 1 * (y 0).val := rfl
  have e1 : ((((cfg0.win 2).blk t).view.emb y) 1).val = win0_2.index t 1 * 128 + 1 * (y 1).val := rfl
  have hq : ((((cfg0.win 2).blk t).view.emb y) 0).val / 1024 = t.val / 1000 := by rw [e0, hi0]; omega
  have hyy : (ix2 (⟨((((cfg0.win 2).blk t).view.emb y) 0).val % 1024, Nat.mod_lt _ (by decide)⟩ : Fin 1024)
      (⟨((((cfg0.win 2).blk t).view.emb y) 1).val, idx2_lt1 _⟩ : Fin 128) : S1024x128.Idx) = y := by
    funext a
    apply Fin.ext
    match a with
    | ⟨0, _⟩ => show ((((cfg0.win 2).blk t).view.emb y) 0).val % 1024 = (y 0).val; rw [e0, hi0]; omega
    | ⟨1, _⟩ => show ((((cfg0.win 2).blk t).view.emb y) 1).val = (y 1).val; rw [e1, hi1]; omega
  beta_reduce
  rw [hq, hyy]

omit hfin in
/-- What the last point of a half writes back to the counts array is its block of `countsArray`. -/
theorem flushedCounts_eq (c : Dev nD) (t : Fin cfg0.N) (hf : (cfg0.win 3).flush t = true) :
    (dats m 0 c).flushed 3 t = ((cfg0.win 3).blk t).view.read (Elt Ideal) (countsArray m c) := by
  have h999 : t.val % 1000 = 999 := (flush0_3 t).mp hf
  have hi0 : win0_3.index t 0 = t.val / 1000 := (outputBlock_index t).2.1
  have hi1 : win0_3.index t 1 = 0 := (outputBlock_index t).2.2
  show (cfg0.win 3).cut (grid0.coords t) ((dats m 0 c).after 3 t) = _
  rw [after0_3]
  funext y
  have hy0 : (y 0).val < 1024 := (y 0).isLt
  have hy1 : (y 1).val < 128 := (y 1).isLt
  show outCountsAt m c t.val t.isLt y = countsArray m c (((cfg0.win 3).blk t).view.emb y)
  rw [outCountsAt_last m c t.val t.isLt h999, countsAt_apply m c t.val t.isLt y, h999]
  unfold countsArray halfCounts
  have e0 : ((((cfg0.win 3).blk t).view.emb y) 0).val = win0_3.index t 0 * 1024 + 1 * (y 0).val := rfl
  have e1 : ((((cfg0.win 3).blk t).view.emb y) 1).val = win0_3.index t 1 * 128 + 1 * (y 1).val := rfl
  have hq : ((((cfg0.win 3).blk t).view.emb y) 0).val / 1024 = t.val / 1000 := by rw [e0, hi0]; omega
  have hyy : (ix2 (⟨((((cfg0.win 3).blk t).view.emb y) 0).val % 1024, Nat.mod_lt _ (by decide)⟩ : Fin 1024)
      (⟨((((cfg0.win 3).blk t).view.emb y) 1).val, idx2_lt1 _⟩ : Fin 128) : S1024x128.Idx) = y := by
    funext a
    apply Fin.ext
    match a with
    | ⟨0, _⟩ => show ((((cfg0.win 3).blk t).view.emb y) 0).val % 1024 = (y 0).val; rw [e0, hi0]; omega
    | ⟨1, _⟩ => show ((((cfg0.win 3).blk t).view.emb y) 1).val = (y 1).val; rw [e1, hi1]; omega
  beta_reduce
  rw [hq, hyy]

omit hfin in
/-- The last point of half `q`. -/
def lastOf (i : S2048x128.Idx) : Fin cfg0.N :=
  ⟨1000 * ((i 0).val / 1024) + 999, by have : cfg0.N = 2000 := N_0; have : (i 0).val < 2048 := (i 0).isLt; omega⟩

omit hfin in
/-- Every entry of the sums array is in the block of its half's last point, which writes it back. -/
theorem coverSums (i : S2048x128.Idx) :
    ∃ t : Fin cfg0.N, (cfg0.win 2).flush t = true ∧ i ∈ ((cfg0.win 2).blk t).view.set := by
  have h0 : (i 0).val < 2048 := (i 0).isLt
  have h1 : (i 1).val < 128 := (i 1).isLt
  refine ⟨lastOf i, (flush0_2 _).mpr (by show (1000 * ((i 0).val / 1024) + 999) % 1000 = 999; omega), ?_⟩
  have hi0 : win0_2.index (lastOf i) 0 = (1000 * ((i 0).val / 1024) + 999) / 1000 := (outputBlock_index (lastOf i)).1.1
  have hi1 : win0_2.index (lastOf i) 1 = 0 := (outputBlock_index (lastOf i)).1.2
  show i ∈ ((View.whole main_v1_0).slice (win0_2.rect (lastOf i))).set
  rw [View.set_slice_whole, Rect.mem_set_unit]
  intro a
  match a with
  | ⟨0, _⟩ =>
    show win0_2.index (lastOf i) 0 * 1024 ≤ (i 0).val ∧ (i 0).val < win0_2.index (lastOf i) 0 * 1024 + 1024
    rw [hi0]; omega
  | ⟨1, _⟩ =>
    show win0_2.index (lastOf i) 1 * 128 ≤ (i 1).val ∧ (i 1).val < win0_2.index (lastOf i) 1 * 128 + 128
    rw [hi1]; omega

omit hfin in
theorem coverCounts (i : S2048x128.Idx) :
    ∃ t : Fin cfg0.N, (cfg0.win 3).flush t = true ∧ i ∈ ((cfg0.win 3).blk t).view.set := by
  have h0 : (i 0).val < 2048 := (i 0).isLt
  have h1 : (i 1).val < 128 := (i 1).isLt
  refine ⟨lastOf i, (flush0_3 _).mpr (by show (1000 * ((i 0).val / 1024) + 999) % 1000 = 999; omega), ?_⟩
  have hi0 : win0_3.index (lastOf i) 0 = (1000 * ((i 0).val / 1024) + 999) / 1000 := (outputBlock_index (lastOf i)).2.1
  have hi1 : win0_3.index (lastOf i) 1 = 0 := (outputBlock_index (lastOf i)).2.2
  show i ∈ ((View.whole main_v1_1).slice (win0_3.rect (lastOf i))).set
  rw [View.set_slice_whole, Rect.mem_set_unit]
  intro a
  match a with
  | ⟨0, _⟩ =>
    show win0_3.index (lastOf i) 0 * 1024 ≤ (i 0).val ∧ (i 0).val < win0_3.index (lastOf i) 0 * 1024 + 1024
    rw [hi0]; omega
  | ⟨1, _⟩ =>
    show win0_3.index (lastOf i) 1 * 128 ≤ (i 1).val ∧ (i 1).val < win0_3.index (lastOf i) 1 * 128 + 128
    rw [hi1]; omega

/-- The sums array after the run. -/
theorem finalSums (c : Dev nD) : (dats m 0 c).arrAt 2 cfg0.N = sumsArray m c :=
  (dats m 0 c).arrAt_eq_of_cover 2 (sumsArray m c) (fun t hf => flushedSums_eq m hfin c t hf) (fun i => coverSums i)

omit hfin in
/-- The counts array after the run. -/
theorem finalCounts (c : Dev nD) : (dats m 0 c).arrAt 3 cfg0.N = countsArray m c :=
  (dats m 0 c).arrAt_eq_of_cover 3 (countsArray m c) (fun t hf => flushedCounts_eq m c t hf) (fun i => coverCounts i)

end Cert.KernelIdeal.Tile

end
-- ==== Proof.KernelTail.lean ====
/-
  The lines after the kernel: from the two output arrays and the old prototypes to the new prototypes.

  The kernel leaves two [2048,128] arrays: rows 0…1023 hold the first half's class sums (and counts, spread over
  the 128 columns), rows 1024…2047 the second half's. The lines after it add the two halves, keep the first 1000
  class rows (of the counts only column 0), divide the sums by `max count 1`, and choose per class between the
  old prototype (an empty class), the mean (an old row that sums to zero) and the mixture 0.9 · old + 0.1 · mean.
  `tailTerm` is that composition as one term of the two arrays and the old prototypes; `tail_eq` says the lines
  compute it from any contents of the other buffers; `tailTerm_apply` reads it at an entry, at the ideal values.
-/
import proofs.«417708_j51427938402447_2_alg».proof.Proof.Gen.KernelIdeal.Frame
import proofs.«417708_j51427938402447_2_alg».proof.Proof.ClassMean
import Idealize.ShloMosaic.Lib.Pipeline.Value
import Idealize.ShloMosaic.Lib.ValueIdx
import Idealize.ShloMosaic.Lib.IdealHost
import Idealize.ShloMosaic.Lib.StableHlo.Run

noncomputable section

open scoped BigOperators

open Idealize.ShloMosaic Idealize.ShloMosaic.TcCoe Idealize.SL.Sem Idealize.ShloMosaic.ValueIdx

namespace Cert.KernelIdeal.Tile

open Cert.KernelIdeal Cert.KernelIdeal.Gen

section Term

variable {F : FTy → Type} [FloatOps F]

/-- The two halves of the sums array added, the 1000 class rows kept. -/
def classSums (A2 : FVec F S2048x128 .f32) : FVec F S1000x128 .f32 :=
  extractStridedSlice S1000x128 ![0, 0]
    (addf (extractStridedSlice S1024x128 ![0, 0] A2 slices_S2048x128_S1024x128_0_0)
      (extractStridedSlice S1024x128 ![1024, 0] A2 slices_S2048x128_S1024x128_1024_0))
    slices_S1024x128_S1000x128_0_0

/-- The two halves of the counts array added, the 1000 class rows and column 0 kept. -/
def classCounts (A3 : FVec F S2048x128 .f32) : FVec F S1000x1 .f32 :=
  extractStridedSlice S1000x1 ![0, 0]
    (addf (extractStridedSlice S1024x128 ![0, 0] A3 slices_S2048x128_S1024x128_0_0)
      (extractStridedSlice S1024x128 ![1024, 0] A3 slices_S2048x128_S1024x128_1024_0))
    slices_S1024x128_S1000x1_0_0

/-- The class means: sums over `max count 1`. -/
def classMeans (A2 A3 : FVec F S2048x128 .f32) : FVec F S1000x128 .f32 :=
  Host.divf (classSums A2)
    (broadcastInDim S1000x128 ![0, 1] bcast_S1000x1_S1000x128_0_1
      (maximumf (classCounts A3) (broadcastInDim S1000x1 ![] bcast_S_S1000x1 (constant S_ .f32 0x3F800000#32))))

/-- Which classes have a row. -/
def classSeen (A3 : FVec F S2048x128 .f32) : IVec S1000x1 1 :=
  cmpf .ogt (classCounts A3) (broadcastInDim S1000x1 ![] bcast_S_S1000x1 (constant S_ .f32 0x00000000#32))

/-- Which old prototype rows sum to zero. -/
def rowIsZero (pr : FVec F S1000x128 .f32) : IVec S1000x1 1 :=
  cmpf .oeq
    (broadcastInDim S1000x1 ![0] bcast_S1000_S1000x1_0
      (Host.reduceAdd pr (constant S_ .f32 0x00000000#32) reducesTo_S1000x128_S1000_d1 h_S_))
    (broadcastInDim S1000x1 ![] bcast_S_S1000x1 (constant S_ .f32 0x00000000#32))

/-- The mixture of the old prototypes and the means. -/
def mixture (A2 A3 : FVec F S2048x128 .f32) (pr : FVec F S1000x128 .f32) : FVec F S1000x128 .f32 :=
  addf (mulf (broadcastInDim S1000x128 ![] bcast_S_S1000x128 (constant S_ .f32 0x3F666666#32)) pr)
    (mulf (broadcastInDim S1000x128 ![] bcast_S_S1000x128 (constant S_ .f32 0x3DCCCCCD#32)) (classMeans A2 A3))

/-- The new prototypes, from the two output arrays and the old prototypes. -/
def tailTerm (A2 A3 : FVec F S2048x128 .f32) (pr : FVec F S1000x128 .f32) : FVec F S1000x128 .f32 :=
  select (broadcastInDim S1000x128 ![0, 1] bcast_S1000x1_S1000x128_0_1 (classSeen A3))
    (select (broadcastInDim S1000x128 ![0, 1] bcast_S1000x1_S1000x128_0_1 (rowIsZero pr)) (classMeans A2 A3) (mixture A2 A3 pr))
    pr

set_option maxHeartbeats 2000000 in
/-- The lines after the kernel, run from any contents `W` of the buffers, leave `tailTerm` of the two arrays and
    the old prototypes in the result. -/
theorem tail_eq (W : Valuation τ sig (Elt F)) :
    StableHlo.after (List.flatten [hostOps1, hostOps1_1, hostOps1_2]) W (Proc.devRef .tc main_v26)
      = tailTerm (W (Proc.devRef .tc main_v1_0)) (W (Proc.devRef .tc main_v1_1)) (W (Proc.devRef .tc main_arg2)) := by
  simp only [hostOps1, hostOps1_1, hostOps1_2, List.flatten_cons, List.flatten_nil, List.append_nil, List.cons_append,
    List.nil_append]
  after_results_simp <;> rfl

end Term

/-! ## Read at an entry, at the ideal values -/

section Read

open Cert.ClassMean

/-- A float constant spread over any shape reads its bit pattern's value. -/
theorem scalarSpread_apply {T : Shape} (h : S_.BroadcastsInDim T ![]) (b : BitVec 32) (i : T.Idx) :
    broadcastInDim T ![] h (constant (F := Ideal) S_ .f32 b) i = Ideal.ofBits .f32 b :=
  broadcastInDim_scalar_apply h _ i

/-- A [1000,1] column spread over 128 columns reads, at (p, j), the column's entry (p, 0). -/
theorem columnSpread_apply {α : Type} (x : S1000x1.Idx → α) (p : Fin 1000) (j : Fin 128) :
    broadcastInDim S1000x128 ![0, 1] bcast_S1000x1_S1000x128_0_1 x (ix2 p j) = x (ix2 p (0 : Fin 1)) :=
  broadcastInDim_apply _ bcast_S1000x1_S1000x128_0_1 x (ix2 p j) (ix2 p (0 : Fin 1)) (fun a => match a with
    | ⟨0, _⟩ => by show p.val = if (1000 : Nat) = 1 then 0 else p.val; rw [if_neg (by decide)]
    | ⟨1, _⟩ => by show 0 = if (1 : Nat) = 1 then 0 else j.val; rw [if_pos rfl])

/-- A [1000] vector set up as a [1000,1] column reads, at (p, 0), the vector's entry p. -/
theorem asColumn_apply {α : Type} (x : S1000.Idx → α) (p : Fin 1000) :
    broadcastInDim S1000x1 ![0] bcast_S1000_S1000x1_0 x (ix2 p (0 : Fin 1)) = x (ix1 p) :=
  broadcastInDim_apply _ bcast_S1000_S1000x1_0 x (ix2 p (0 : Fin 1)) (ix1 p) (fun a => match a with
    | ⟨0, _⟩ => by show p.val = if (1000 : Nat) = 1 then 0 else p.val; rw [if_neg (by decide)])

/-- Class row `p` of the first half, and of the second. -/
def loRow (p : Fin 1000) : Fin 2048 := ⟨p.val, by have := p.isLt; omega⟩
def hiRow (p : Fin 1000) : Fin 2048 := ⟨1024 + p.val, by have := p.isLt; omega⟩

theorem classSums_apply (A2 : FVec Ideal S2048x128 .f32) (p : Fin 1000) (j : Fin 128) :
    classSums A2 (ix2 p j) = A2 (ix2 (loRow p) j) + A2 (ix2 (hiRow p) j) := by
  unfold classSums
  have hp := p.isLt
  rw [extractStridedSlice_apply _ _ _ (ix2 p j) (ix2 (⟨p.val, by omega⟩ : Fin 1024) j) (fun a => match a with
    | ⟨0, _⟩ => by show p.val = 0 + p.val; omega
    | ⟨1, _⟩ => by show j.val = 0 + j.val; omega)]
  rw [addf_apply]
  rw [extractStridedSlice_apply _ A2 slices_S2048x128_S1024x128_0_0 (ix2 (⟨p.val, by omega⟩ : Fin 1024) j) (ix2 (loRow p) j) (fun a => match a with
    | ⟨0, _⟩ => by show p.val = 0 + p.val; omega
    | ⟨1, _⟩ => by show j.val = 0 + j.val; omega)]
  rw [extractStridedSlice_apply _ A2 slices_S2048x128_S1024x128_1024_0 (ix2 (⟨p.val, by omega⟩ : Fin 1024) j) (ix2 (hiRow p) j) (fun a => match a with
    | ⟨0, _⟩ => by show 1024 + p.val = 1024 + p.val; rfl
    | ⟨1, _⟩ => by show j.val = 0 + j.val; omega)]

theorem classCounts_apply (A3 : FVec Ideal S2048x128 .f32) (p : Fin 1000) :
    classCounts A3 (ix2 p (0 : Fin 1)) = A3 (ix2 (loRow p) (0 : Fin 128)) + A3 (ix2 (hiRow p) (0 : Fin 128)) := by
  unfold classCounts
  have hp := p.isLt
  rw [extractStridedSlice_apply _ _ _ (ix2 p (0 : Fin 1)) (ix2 (⟨p.val, by omega⟩ : Fin 1024) (0 : Fin 128)) (fun a => match a with
    | ⟨0, _⟩ => by show p.val = 0 + p.val; omega
    | ⟨1, _⟩ => by show 0 = 0 + 0; rfl)]
  rw [addf_apply]
  rw [extractStridedSlice_apply _ A3 slices_S2048x128_S1024x128_0_0 (ix2 (⟨p.val, by omega⟩ : Fin 1024) (0 : Fin 128)) (ix2 (loRow p) (0 : Fin 128)) (fun a => match a with
    | ⟨0, _⟩ => by show p.val = 0 + p.val; omega
    | ⟨1, _⟩ => by show 0 = 0 + 0; rfl)]
  rw [extractStridedSlice_apply _ A3 slices_S2048x128_S1024x128_1024_0 (ix2 (⟨p.val, by omega⟩ : Fin 1024) (0 : Fin 128)) (ix2 (hiRow p) (0 : Fin 128)) (fun a => match a with
    | ⟨0, _⟩ => by show 1024 + p.val = 1024 + p.val; rfl
    | ⟨1, _⟩ => by show 0 = 0 + 0; rfl)]

/-- An old prototype row's total, as the lines after the kernel compute it. -/
theorem rowSum_apply (pr : FVec Ideal S1000x128 .f32) (p : Fin 1000) :
    Host.reduceAdd pr (constant (F := Ideal) S_ .f32 0x00000000#32) reducesTo_S1000x128_S1000_d1 h_S_ (ix1 p) = rowTotal pr p := by
  rw [hostReduceAdd_apply, Ideal.hostReduceAdd_single reducesTo_S1000x128_S1000_d1 (by decide)]
  unfold rowTotal
  refine congrArg₂ (· + ·) rfl (Finset.sum_congr rfl fun k _ => ?_)
  exact congrArg pr (funext fun a => Fin.ext (by match a with | ⟨0, _⟩ => rfl | ⟨1, _⟩ => rfl))

theorem classMeans_apply (A2 A3 : FVec Ideal S2048x128 .f32) (p : Fin 1000) (j : Fin 128) :
    classMeans A2 A3 (ix2 p j)
      = Ideal.div (A2 (ix2 (loRow p) j) + A2 (ix2 (hiRow p) j))
          (max (A3 (ix2 (loRow p) (0 : Fin 128)) + A3 (ix2 (hiRow p) (0 : Fin 128))) (Ideal.ofBits .f32 0x3F800000#32)) := by
  unfold classMeans
  rw [hostDivf_apply, columnSpread_apply, maximumf_apply, scalarSpread_apply, classSums_apply, classCounts_apply]

/-- THE NEW PROTOTYPES AT (p, j): the blend of the two halves' class sums and counts, the old row's total and the old entry. -/
theorem tailTerm_apply (A2 A3 : FVec Ideal S2048x128 .f32) (pr : FVec Ideal S1000x128 .f32) (p : Fin 1000) (j : Fin 128) :
    tailTerm A2 A3 pr (ix2 p j)
      = blend (A2 (ix2 (loRow p) j) + A2 (ix2 (hiRow p) j))
          (A3 (ix2 (loRow p) (0 : Fin 128)) + A3 (ix2 (hiRow p) (0 : Fin 128))) (rowTotal pr p) (pr (ix2 p j)) := by
  unfold tailTerm mixture classSeen rowIsZero
  rw [select_apply, select_apply, columnSpread_apply, columnSpread_apply, cmpf_apply, cmpf_apply, asColumn_apply,
    scalarSpread_apply, rowSum_apply, classCounts_apply, addf_apply, mulf_apply, mulf_apply,
    scalarSpread_apply, scalarSpread_apply, classMeans_apply]
  rfl

end Read

end Cert.KernelIdeal.Tile

end
-- ==== Proof.KernelValue.lean ====
/-
  The kernel's result: the updated prototype table of the launch contents, when every feature entry is real.

  The two output arrays hold, in rows 1024·q + p, half q's class-p sums and counts; a half's sums are its 1000
  points' contributions, a point's contribution the entries of its 1000 rows of that class. Adding the two
  halves therefore adds up, over all 2,000,000 rows visited half by half, tile by tile and row by row, the
  entries of the rows of class p: the class sum; and likewise the class count. The lines after the kernel then
  blend them with the old prototypes exactly as the specification does.
-/
import proofs.«417708_j51427938402447_2_alg».proof.Proof.TileSums
import proofs.«417708_j51427938402447_2_alg».proof.Proof.KernelTail

noncomputable section

open scoped BigOperators

open Idealize.ShloMosaic Idealize.ShloMosaic.TcCoe Idealize.SL.Sem Idealize.ShloMosaic.ValueIdx
open Idealize.ShloMosaic.Pipeline (Dat)

namespace Cert.KernelIdeal.Tile

open Cert.KernelIdeal Cert.KernelIdeal.Gen Cert.ClassMean

variable (m : (ℓ : Loc nD τ sig) → Buf (Elt Ideal) ℓ) (ρ : Dev nD → PrngReg)

/-- Point `1000·q + j`'s row `k` is row `k` of tile `j` of half `q`. -/
theorem rowOf_eq_rowAt (q : Fin 2) (j k : Fin 1000) (h : 1000 * q.val + j.val < cfg0.N) :
    rowOf (1000 * q.val + j.val) h k = rowAt q j k :=
  Fin.ext (by show 1000 * (1000 * q.val + j.val) + k.val = (1000 * q.val + j.val) * 1000 + k.val; omega)

/-- Half `q`'s sums at (r, j): over its tiles and their rows, the entries of the rows of class `r`. -/
theorem halfSums_eq (c : Dev nD) (q : Fin 2) (r : Fin 1024) (j : Fin 128) :
    halfSums m c q.val (ix2 r j)
      = ∑ t : Fin 1000, ∑ k : Fin 1000,
          if (words m c (ix1 (rowAt q t k))).toInt = (r.val : ℤ) then feats m c (ix2 (rowAt q t k) j) else 0 := by
  unfold halfSums
  rw [← Fin.sum_univ_eq_sum_range (fun s => pointSum m c (1000 * q.val + s) (ix2 r j)) 1000]
  refine Finset.sum_congr rfl fun t _ => ?_
  have h : 1000 * q.val + t.val < cfg0.N := by
    have : cfg0.N = 2000 := N_0
    have := q.isLt; have := t.isLt; omega
  unfold pointSum
  rw [dif_pos h]
  refine Finset.sum_congr rfl fun k _ => ?_
  rw [rowOf_eq_rowAt q t k h]

/-- Half `q`'s counts at (r, j): the number of its rows of class `r`. -/
theorem halfCounts_eq (c : Dev nD) (q : Fin 2) (r : Fin 1024) (j : Fin 128) :
    halfCounts m c q.val (ix2 r j)
      = ∑ t : Fin 1000, ∑ k : Fin 1000,
          if (words m c (ix1 (rowAt q t k))).toInt = (r.val : ℤ) then (1 : EReal) else 0 := by
  unfold halfCounts
  rw [← Fin.sum_univ_eq_sum_range (fun s => pointCount m c (1000 * q.val + s) (ix2 r j)) 1000]
  refine Finset.sum_congr rfl fun t _ => ?_
  have h : 1000 * q.val + t.val < cfg0.N := by
    have : cfg0.N = 2000 := N_0
    have := q.isLt; have := t.isLt; omega
  unfold pointCount
  rw [dif_pos h]
  refine Finset.sum_congr rfl fun k _ => ?_
  rw [rowOf_eq_rowAt q t k h]

/-- Row `p` of the first half of an output array is half 0's row `p`, -/
theorem sumsArray_lo (c : Dev nD) (p : Fin 1000) (j : Fin 128) :
    sumsArray m c (ix2 (loRow p) j) = halfSums m c (0 : Fin 2).val (ix2 (⟨p.val, by have := p.isLt; omega⟩ : Fin 1024) j) := by
  have hp := p.isLt
  unfold sumsArray
  have e0 : ((ix2 (loRow p) j : S2048x128.Idx) 0).val = p.val := rfl
  show halfSums m c (p.val / 1024) (ix2 ⟨p.val % 1024, _⟩ ⟨j.val, _⟩) = _
  congr 1
  · show p.val / 1024 = 0; omega
  · funext a; apply Fin.ext
    match a with
    | ⟨0, _⟩ => show p.val % 1024 = p.val; omega
    | ⟨1, _⟩ => rfl

/-- and row `p` of the second half is half 1's row `p`. -/
theorem sumsArray_hi (c : Dev nD) (p : Fin 1000) (j : Fin 128) :
    sumsArray m c (ix2 (hiRow p) j) = halfSums m c (1 : Fin 2).val (ix2 (⟨p.val, by have := p.isLt; omega⟩ : Fin 1024) j) := by
  have hp := p.isLt
  unfold sumsArray
  show halfSums m c ((1024 + p.val) / 1024) (ix2 ⟨(1024 + p.val) % 1024, _⟩ ⟨j.val, _⟩) = _
  congr 1
  · show (1024 + p.val) / 1024 = 1; omega
  · funext a; apply Fin.ext
    match a with
    | ⟨0, _⟩ => show (1024 + p.val) % 1024 = p.val; omega
    | ⟨1, _⟩ => rfl

theorem countsArray_lo (c : Dev nD) (p : Fin 1000) (j : Fin 128) :
    countsArray m c (ix2 (loRow p) j) = halfCounts m c (0 : Fin 2).val (ix2 (⟨p.val, by have := p.isLt; omega⟩ : Fin 1024) j) := by
  have hp := p.isLt
  unfold countsArray
  show halfCounts m c (p.val / 1024) (ix2 ⟨p.val % 1024, _⟩ ⟨j.val, _⟩) = _
  congr 1
  · show p.val / 1024 = 0; omega
  · funext a; apply Fin.ext
    match a with
    | ⟨0, _⟩ => show p.val % 1024 = p.val; omega
    | ⟨1, _⟩ => rfl

theorem countsArray_hi (c : Dev nD) (p : Fin 1000) (j : Fin 128) :
    countsArray m c (ix2 (hiRow p) j) = halfCounts m c (1 : Fin 2).val (ix2 (⟨p.val, by have := p.isLt; omega⟩ : Fin 1024) j) := by
  have hp := p.isLt
  unfold countsArray
  show halfCounts m c ((1024 + p.val) / 1024) (ix2 ⟨(1024 + p.val) % 1024, _⟩ ⟨j.val, _⟩) = _
  congr 1
  · show (1024 + p.val) / 1024 = 1; omega
  · funext a; apply Fin.ext
    match a with
    | ⟨0, _⟩ => show (1024 + p.val) % 1024 = p.val; omega
    | ⟨1, _⟩ => rfl

/-- The two halves' sums of class `p` add up to the class sum. -/
theorem halves_classSum (c : Dev nD) (p : Fin 1000) (j : Fin 128) :
    sumsArray m c (ix2 (loRow p) j) + sumsArray m c (ix2 (hiRow p) j) = classSum (feats m c) (words m c) p j := by
  rw [sumsArray_lo, sumsArray_hi, halfSums_eq, halfSums_eq, classSum_eq_ite, sum_rows_eq_tiles, Fin.sum_univ_two]

/-- The two halves' counts of class `p` add up to the class count. -/
theorem halves_classCount (c : Dev nD) (p : Fin 1000) (j : Fin 128) :
    countsArray m c (ix2 (loRow p) j) + countsArray m c (ix2 (hiRow p) j) = classCount (words m c) p := by
  rw [countsArray_lo, countsArray_hi, halfCounts_eq, halfCounts_eq, classCount_eq_ite, sum_rows_eq_tiles, Fin.sum_univ_two]

variable (hfin : ∀ (c : Dev nD) (i : SFeat.Idx), ∃ v : ℝ, feats m c i = (v : EReal))
include hfin

/-- The result buffer after the lines that follow the kernel: the updated prototype table of the launch contents. -/
theorem result_eq (c : Dev nD) :
    Pipeline.afterTail₀ cfgs (dats m) 0 (V0 m) [hostOps1, hostOps1_1, hostOps1_2] c main_v26
      = updated (feats m c) (words m c) (m ((c : Thread nD τ).loc main_arg2)) := by
  unfold Pipeline.afterTail₀
  refine (tail_eq _).trans ?_
  have e2 : Pipeline.withArrays (cfgs 0).spec c (V0 m c) (fun w => (dats m 0 c).arrAt w (cfgs 0).N) (Proc.devRef .tc main_v1_0)
      = sumsArray m c :=
    (Pipeline.withArrays_arr spec0 launch0.win.arr_inj c _ _ 2).trans (finalSums m hfin c)
  have e3 : Pipeline.withArrays (cfgs 0).spec c (V0 m c) (fun w => (dats m 0 c).arrAt w (cfgs 0).N) (Proc.devRef .tc main_v1_1)
      = countsArray m c :=
    (Pipeline.withArrays_arr spec0 launch0.win.arr_inj c _ _ 3).trans (finalCounts m c)
  have ep : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  rw [e2, e3, ep]
  funext i
  obtain ⟨p, j, rfl⟩ : ∃ (p : Fin 1000) (j : Fin 128), i = ix2 p j := ⟨i 0, i 1, eq_ix2 i⟩
  rw [tailTerm_apply, updated_apply, halves_classSum, halves_classCount]

/-- THE KERNEL'S RUN, READ: every weakly fair execution terminates with the result buffer at the updated prototype
    table of the launch contents and the three arguments unchanged. -/
theorem run : θ_run defs (onTc (τ := τ) (main (F := Ideal))) ⟨m, fun _ => 0, ρ⟩ (fun r => ∀ c : Dev nD,
      r.2.mem ((c.tc : Thread nD τ).loc main_v26) = updated (feats m c) (words m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v26 (Pipeline.mem_restRefs_of main_v26 (by decide) (by decide))).trans (result_eq m hfin c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Tile

end
-- ==== Proof.lean ====
/-
  The certificate of the class-mean prototype update.

  The kernel adds up, per class, the feature rows carrying that class word, and counts them, by a tiled one-hot
  matrix product accumulated over the grid (two halves of 1000 tiles of 1000 rows); the reference does the same by
  two scatter-adds. Both then blend the class means with the old prototypes by the same pointwise rule.

  At the ideal values both results are the one table `Cert.ClassMean.updated` of the three argument arrays:
  • the reference, for any arguments (`Cert.ReferenceIdeal.RefValue.result_eq`: a scatter-add read at an entry is the
    sum over the rows that land there);
  • the kernel, when every feature entry is a real number, which the precondition gives
    (`Cert.FiniteRows.features_real`): the kernel splits a feature x into x beside x − x, and a class's share of
    the residue x − x is zero only for a real x (`Cert.KernelIdeal.Tile.run`).
  The frames of both kernels are the frame run's; the reference's frame is its run with the result dropped; the one
  ledger entry (a narrowing to bf16 widened back, printed as the identity) is the rule's own statement.
-/
import proofs.«417708_j51427938402447_2_alg».proof.Defs
import proofs.«417708_j51427938402447_2_alg».proof.Proof.Gen.Kernel
import proofs.«417708_j51427938402447_2_alg».proof.Proof.Gen.Kernel.Skeleton
import proofs.«417708_j51427938402447_2_alg».proof.Proof.Gen.Kernel.Launch
import proofs.«417708_j51427938402447_2_alg».proof.Proof.Gen.Kernel.Points
import proofs.«417708_j51427938402447_2_alg».proof.Proof.Gen.Kernel.Frame
import proofs.«417708_j51427938402447_2_alg».proof.Proof.Gen.KernelIdeal
import proofs.«417708_j51427938402447_2_alg».proof.Proof.Gen.KernelIdeal.Skeleton
import proofs.«417708_j51427938402447_2_alg».proof.Proof.Gen.KernelIdeal.Launch
import proofs.«417708_j51427938402447_2_alg».proof.Proof.Gen.KernelIdeal.Points
import proofs.«417708_j51427938402447_2_alg».proof.Proof.Gen.KernelIdeal.Frame
import proofs.«417708_j51427938402447_2_alg».proof.Proof.Gen.ReferenceIdeal
import proofs.«417708_j51427938402447_2_alg».proof.Proof.Gen.Pre_finite_inputs
import proofs.«417708_j51427938402447_2_alg».proof.Proof.RefRun
import proofs.«417708_j51427938402447_2_alg».proof.Proof.RefRead
import proofs.«417708_j51427938402447_2_alg».proof.Proof.RefValue
import proofs.«417708_j51427938402447_2_alg».proof.Proof.FiniteRows
import proofs.«417708_j51427938402447_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The ledger's one entry: a feature block narrowed to bf16 and widened back is, at the ideal values, the block. -/
theorem preserves : Cert.preserves_Kernel_KernelIdeal :=
  IdealRules.truncf_extf.statement Cert.KernelIdeal.S1000x128 .f32 .bf16

/-- Both programs end at the updated prototype table of the arguments: the kernel because the precondition makes
    every feature entry real, the reference for any arguments; the arguments agree. -/
theorem algebraic : Cert.algebraic_KernelIdeal_ReferenceIdeal := by
  intro m ρ m' ρ' hpre hagree
  have hfin : ∀ (c : Dev Cert.KernelIdeal.nD) (i : Cert.ClassMean.SFeat.Idx),
      ∃ v : ℝ, Cert.KernelIdeal.Tile.feats m c i = (v : EReal) :=
    fun c i => Cert.FiniteRows.features_real _ _ _ (hpre c) i
  refine ⟨fun c => Cert.ClassMean.updated (Cert.KernelIdeal.Tile.feats m c) (Cert.KernelIdeal.Tile.words m c)
    (m ((c.tc : Thread Cert.KernelIdeal.nD Cert.KernelIdeal.τ).loc Cert.KernelIdeal.main_arg2)),
    Cert.KernelIdeal.Tile.run m ρ hfin, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v25_eq, Cert.ReferenceIdeal.RefValue.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
